-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26_0)) (v4 : (c : Dev Cert.KernelIdeal.nD) → Buf (Elt Ideal) ((c.tc : Thread Cert.KernelIdeal.nD Cert.KernelIdeal.τ).loc Cert.KernelIdeal.main_v26_1)) (v5 : (c : Dev Cert.KernelIdeal.nD) → Buf (Elt Ideal) ((c.tc : Thread Cert.KernelIdeal.nD Cert.KernelIdeal.τ).loc Cert.KernelIdeal.main_v26_2)) (v6 : (c : Dev Cert.KernelIdeal.nD) → Buf (Elt Ideal) ((c.tc : Thread Cert.KernelIdeal.nD Cert.KernelIdeal.τ).loc Cert.KernelIdeal.main_v27_0)) (v7 : (c : Dev Cert.KernelIdeal.nD) → Buf (Elt Ideal) ((c.tc : Thread Cert.KernelIdeal.nD Cert.KernelIdeal.τ).loc Cert.KernelIdeal.main_v27_1)) (v8 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26_0) = v3 c
          ∧ r.2.mem ((c.tc : Thread Cert.KernelIdeal.nD Cert.KernelIdeal.τ).loc Cert.KernelIdeal.main_v26_1) = v4 c
          ∧ r.2.mem ((c.tc : Thread Cert.KernelIdeal.nD Cert.KernelIdeal.τ).loc Cert.KernelIdeal.main_v26_2) = v5 c
          ∧ r.2.mem ((c.tc : Thread Cert.KernelIdeal.nD Cert.KernelIdeal.τ).loc Cert.KernelIdeal.main_v27_0) = v6 c
          ∧ r.2.mem ((c.tc : Thread Cert.KernelIdeal.nD Cert.KernelIdeal.τ).loc Cert.KernelIdeal.main_v27_1) = v7 c
          ∧ r.2.mem ((c.tc : Thread Cert.KernelIdeal.nD Cert.KernelIdeal.τ).loc Cert.KernelIdeal.main_v27_2) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v43) = v5 c
          ∧ r.2.mem ((c.tc : Thread Cert.ReferenceIdeal.nD Cert.ReferenceIdeal.τ).loc Cert.ReferenceIdeal.main_v81) = v6 c
          ∧ r.2.mem ((c.tc : Thread Cert.ReferenceIdeal.nD Cert.ReferenceIdeal.τ).loc Cert.ReferenceIdeal.main_v62) = v7 c
          ∧ r.2.mem ((c.tc : Thread Cert.ReferenceIdeal.nD Cert.ReferenceIdeal.τ).loc Cert.ReferenceIdeal.main_v71) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x512x512 : Shape := ⟨3, ![32, 512, 512]⟩
abbrev S512x512 : Shape := ⟨2, ![512, 512]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg11 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  main_v58

def fn_part2 {F : FTy → Type} [FloatOps F] (main_arg7 : FVec F S32x512x512 .f32) (main_arg8 : FVec F S32x512x512 .f32) (main_arg9 : FVec F S32x512x512 .f32) (main_arg10 : FVec F S512x512 .f32) (main_arg11 : FVec F S512x512 .f32) (main_v33 : IVec S_ 1) : IVec S_ 1 :=
  let main_v34 : FVec F S32x512x512 .f32 := Host.absf main_arg7
  let main_cst_12 : FVec F S_ .f32 := constant S_ .f32 0x7F800000#32
  let main_v35 : FVec F S32x512x512 .f32 := broadcastInDim S32x512x512 ![] bcast_S_S32x512x512 main_cst_12
  let main_v36 : IVec S32x512x512 1 := cmpf .olt main_v34 main_v35
  let main_c_13 : IVec S_ 1 := constantI S_ 1 1#1
  let main_v37 : IVec S_ 1 := (fun x v => Host.reduce IntOp.andi x v reducesTo_S32x512x512_S_d0_1_2 h_S_) main_v36 main_c_13
  let main_v38 : IVec S_ 1 := andi main_v33 main_v37
  let main_v39 : FVec F S32x512x512 .f32 := Host.absf main_arg8
  let main_cst_14 : FVec F S_ .f32 := constant S_ .f32 0x7F800000#32
  let main_v40 : FVec F S32x512x512 .f32 := broadcastInDim S32x512x512 ![] bcast_S_S32x512x512 main_cst_14
  let main_v41 : IVec S32x512x512 1 := cmpf .olt main_v39 main_v40
  let main_c_15 : IVec S_ 1 := constantI S_ 1 1#1
  let main_v42 : IVec S_ 1 := (fun x v => Host.reduce IntOp.andi x v reducesTo_S32x512x512_S_d0_1_2 h_S_) main_v41 main_c_15
  let main_v43 : IVec S_ 1 := andi main_v38 main_v42
  let main_v44 : FVec F S32x512x512 .f32 := Host.absf main_arg9
  let main_cst_16 : FVec F S_ .f32 := constant S_ .f32 0x7F800000#32
  let main_v45 : FVec F S32x512x512 .f32 := broadcastInDim S32x512x512 ![] bcast_S_S32x512x512 main_cst_16
  let main_v46 : IVec S32x512x512 1 := cmpf .olt main_v44 main_v45
  let main_c_17 : IVec S_ 1 := constantI S_ 1 1#1
  let main_v47 : IVec S_ 1 := (fun x v => Host.reduce IntOp.andi x v reducesTo_S32x512x512_S_d0_1_2 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S32x512x512 .f32) (main_arg5 : FVec F S32x512x512 .f32) (main_arg6 : FVec F S32x512x512 .f32) (main_arg7 : FVec F S32x512x512 .f32) (main_arg8 : FVec F S32x512x512 .f32) (main_arg9 : FVec F S32x512x512 .f32) (main_arg10 : FVec F S512x512 .f32) (main_arg11 : FVec F S512x512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32x512x512 .f32 := Host.absf main_arg4
  let main_cst_6 : FVec F S_ .f32 := constant S_ .f32 0x7F800000#32
  let main_v20 : FVec F S32x512x512 .f32 := broadcastInDim S32x512x512 ![] bcast_S_S32x512x512 main_cst_6
  let main_v21 : IVec S32x512x512 1 := cmpf .olt main_v19 main_v20
  let main_c_7 : IVec S_ 1 := constantI S_ 1 1#1
  let main_v22 : IVec S_ 1 := (fun x v => Host.reduce IntOp.andi x v reducesTo_S32x512x512_S_d0_1_2 h_S_) main_v21 main_c_7
  let main_v23 : IVec S_ 1 := andi main_v18 main_v22
  let main_v24 : FVec F S32x512x512 .f32 := Host.absf main_arg5
  let main_cst_8 : FVec F S_ .f32 := constant S_ .f32 0x7F800000#32
  let main_v25 : FVec F S32x512x512 .f32 := broadcastInDim S32x512x512 ![] bcast_S_S32x512x512 main_cst_8
  let main_v26 : IVec S32x512x512 1 := cmpf .olt main_v24 main_v25
  let main_c_9 : IVec S_ 1 := constantI S_ 1 1#1
  let main_v27 : IVec S_ 1 := (fun x v => Host.reduce IntOp.andi x v reducesTo_S32x512x512_S_d0_1_2 h_S_) main_v26 main_c_9
  let main_v28 : IVec S_ 1 := andi main_v23 main_v27
  let main_v29 : FVec F S32x512x512 .f32 := Host.absf main_arg6
  let main_cst_10 : FVec F S_ .f32 := constant S_ .f32 0x7F800000#32
  let main_v30 : FVec F S32x512x512 .f32 := broadcastInDim S32x512x512 ![] bcast_S_S32x512x512 main_cst_10
  let main_v31 : IVec S32x512x512 1 := cmpf .olt main_v29 main_v30
  let main_c_11 : IVec S_ 1 := constantI S_ 1 1#1
  let main_v32 : IVec S_ 1 := (fun x v => Host.reduce IntOp.andi x v reducesTo_S32x512x512_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x512 .f32) (main_arg1 : FVec F S32x512 .f32) (main_arg2 : FVec F S32x512 .f32) (main_arg3 : FVec F S32x512 .f32) (main_arg4 : FVec F S32x512x512 .f32) (main_arg5 : FVec F S32x512x512 .f32) (main_arg6 : FVec F S32x512x512 .f32) (main_arg7 : FVec F S32x512x512 .f32) (main_arg8 : FVec F S32x512x512 .f32) (main_arg9 : FVec F S32x512x512 .f32) (main_arg10 : FVec F S512x512 .f32) (main_arg11 : FVec F S512x512 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_arg8 main_arg9 main_arg10 main_arg11 main_v13 main_v16
-- ==== Kernel.lean ====
abbrev S32x512 : Shape := ⟨2, ![32, 512]⟩
abbrev S32x512x512 : Shape := ⟨3, ![32, 512, 512]⟩
abbrev S512x512 : Shape := ⟨2, ![512, 512]⟩
abbrev S_ : Shape := ⟨0, ![]⟩
abbrev S8x512 : Shape := ⟨2, ![8, 512]⟩
abbrev S8x128 : Shape := ⟨2, ![8, 128]⟩
abbrev S8x512x128 : Shape := ⟨3, ![8, 512, 128]⟩
abbrev S8x512x1 : Shape := ⟨3, ![8, 512, 1]⟩
abbrev S8x1x128 : Shape := ⟨3, ![8, 1, 128]⟩

abbrev nBuf : Space → Nat
  | .hbm => 51
  | .vmem => 32
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x512x512, .f32⟩
  | .hbm, ⟨5, _⟩ => ⟨S32x512x512, .f32⟩
  | .hbm, ⟨6, _⟩ => ⟨S32x512x512, .f32⟩
  | .hbm, ⟨7, _⟩ => ⟨S32x512x512, .f32⟩
  | .hbm, ⟨8, _⟩ => ⟨S32x512x512, .f32⟩
  | .hbm, ⟨9, _⟩ => ⟨S32x512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S_, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S_, .f32⟩
  | .hbm, ⟨28, _⟩ => ⟨S32x512, .f32⟩
  | .hbm, ⟨29, _⟩ => ⟨S32x512, .i1⟩
  | .hbm, ⟨30, _⟩ => ⟨S32x512, .f32⟩
  | .hbm, ⟨31, _⟩ => ⟨S_, .f32⟩
  | .hbm, ⟨32, _⟩ => ⟨S32x512, .f32⟩
  | .hbm, ⟨33, _⟩ => ⟨S32x512, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x512, .f32⟩
  | .hbm, ⟨39, _⟩ => ⟨S512x512, .f32⟩
  | .hbm, ⟨40, _⟩ => ⟨S32x512, .f32⟩
  | .hbm, ⟨41, _⟩ => ⟨S32x512, .f32⟩
  | .hbm, ⟨42, _⟩ => ⟨S512x512, .f32⟩
  | .hbm, ⟨43, _⟩ => ⟨S32x512, .f32⟩
  | .hbm, ⟨44, _⟩ => ⟨S32x512, .f32⟩
  | .hbm, ⟨45, _⟩ => ⟨S32x512x512, .f32⟩
  | .hbm, ⟨46, _⟩ => ⟨S32x512x512, .f32⟩
  | .hbm, ⟨47, _⟩ => ⟨S32x512x512, .f32⟩
  | .hbm, ⟨48, _⟩ => ⟨S32x512x512, .f32⟩
  | .hbm, ⟨49, _⟩ => ⟨S32x512x512, .f32⟩
  | .hbm, ⟨50, _⟩ => ⟨S32x512x512, .f32⟩
  | .local _ .vmem, ⟨0, _⟩ => ⟨S8x512, .f32⟩
  | .local _ .vmem, ⟨1, _⟩ => ⟨S8x512, .f32⟩
  | .local _ .vmem, ⟨2, _⟩ => ⟨S8x128, .f32⟩
  | .local _ .vmem, ⟨3, _⟩ => ⟨S8x128, .f32⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | .local _ .vmem, ⟨7, _⟩ => ⟨S8x512x128, .f32⟩
  | .local _ .vmem, ⟨8, _⟩ => ⟨S8x512x128, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .vmem, ⟨13, _⟩ => ⟨S8x512x128, .f32⟩
  | .local _ .vmem, ⟨14, _⟩ => ⟨S8x512x128, .f32⟩
  | .local _ .vmem, ⟨15, _⟩ => ⟨S8x512x128, .f32⟩
  | .local _ .vmem, ⟨16, _⟩ => ⟨S8x512, .f32⟩
  | .local _ .vmem, ⟨17, _⟩ => ⟨S8x512, .f32⟩
  | .local _ .vmem, ⟨18, _⟩ => ⟨S8x128, .f32⟩
  | .local _ .vmem, ⟨19, _⟩ => ⟨S8x128, .f32⟩
  | .local _ .vmem, ⟨20, _⟩ => ⟨S8x512x128, .f32⟩
  | .local _ .vmem, ⟨21, _⟩ => ⟨S8x512x128, .f32⟩
  | .local _ .vmem, ⟨22, _⟩ => ⟨S8x512x128, .f32⟩
  | .local _ .vmem, ⟨23, _⟩ => ⟨S8x512x128, .f32⟩
  | .local _ .vmem, ⟨24, _⟩ => ⟨S8x512x128, .f32⟩
  | .local _ .vmem, ⟨25, _⟩ => ⟨S8x512x128, .f32⟩
  | .local _ .vmem, ⟨26, _⟩ => ⟨S8x512x128, .f32⟩
  | .local _ .vmem, ⟨27, _⟩ => ⟨S8x512x128, .f32⟩
  | .local _ .vmem, ⟨28, _⟩ => ⟨S8x512x128, .f32⟩
  | .local _ .vmem, ⟨29, _⟩ => ⟨S8x512x128, .f32⟩
  | .local _ .vmem, ⟨30, _⟩ => ⟨S8x512x128, .f32⟩
  | .local _ .vmem, ⟨31, _⟩ => ⟨S8x512x128, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bcast_S_S32x512 : S_.BroadcastsInDim S32x512 (![] : Fin 0 → Fin S32x512.rank)
  transposes_S512x512_S512x512_1_0 : S512x512.Transposes [1, 0] S512x512
  inb_S8x512_S8x512_0_0 : ∀ a, (![0, 0] : Fin 2 → Nat) a + S8x512.size a ≤ S8x512.size a
  h_S8x512 : 0 < S8x512.numel
  shapeCasts_S8x512_S8x512x1 : S8x512.ShapeCasts S8x512x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x1x128 : S8x128.ShapeCasts S8x1x128
  inb_S8x512x128_S8x512x128_0_0_0 : ∀ a, (![0, 0, 0] : Fin 3 → Nat) a + S8x512x128.size a ≤ S8x512x128.size a
  h_S8x512x128 : 0 < S8x512x128.numel
  broadcasts_S8x1x128_S8x512x128 : S8x1x128.Broadcasts S8x512x128
  broadcasts_S8x512x1_S8x512x128 : S8x512x1.Broadcasts S8x512x128
  dot_S32x512_S512x512_S32x512_1_0_0_1_n_n_wf : DotDims.WF S32x512 S512x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S32x512.size a
  hwx0_0 : ∀ i : grid0.Coords, EltTy.bits .f32 = 32 ∨ (Rect.block (s := S32x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x128.size a ≤ S32x512x512.size a
  hwx0_2 : ∀ i : grid0.Coords, EltTy.bits .f32 = 32 ∨ (Rect.block (s := S32x512x512) S8x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x128.size a ≤ S32x512x512.size a
  hwx0_3 : ∀ i : grid0.Coords, EltTy.bits .f32 = 32 ∨ (Rect.block (s := S32x512x512) S8x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512x128.size a ≤ S32x512x512.size a
  hwx0_4 : ∀ i : grid0.Coords, EltTy.bits .f32 = 32 ∨ (Rect.block (s := S32x512x512) S8x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x128.size a ≤ S32x512x512.size a
  hwx0_5 : ∀ i : grid0.Coords, EltTy.bits .f32 = 32 ∨ (Rect.block (s := S32x512x512) S8x512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x128.size a ≤ S32x512x512.size a
  hwx0_6 : ∀ i : grid0.Coords, EltTy.bits .f32 = 32 ∨ (Rect.block (s := S32x512x512) S8x512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512x128.size a ≤ S32x512x512.size a
  hwx0_7 : ∀ i : grid0.Coords, EltTy.bits .f32 = 32 ∨ (Rect.block (s := S32x512x512) S8x512x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S32x512.size a
  hwx1_0 : ∀ i : grid1.Coords, EltTy.bits .f32 = 32 ∨ (Rect.block (s := S32x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x512.size a
  hwx1_1 : ∀ i : grid1.Coords, EltTy.bits .f32 = 32 ∨ (Rect.block (s := S32x512) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512x128.size a ≤ S32x512x512.size a
  hwx1_2 : ∀ i : grid1.Coords, EltTy.bits .f32 = 32 ∨ (Rect.block (s := S32x512x512) S8x512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512x128.size a ≤ S32x512x512.size a
  hwx1_3 : ∀ i : grid1.Coords, EltTy.bits .f32 = 32 ∨ (Rect.block (s := S32x512x512) S8x512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512x128.size a ≤ S32x512x512.size a
  hwx1_4 : ∀ i : grid1.Coords, EltTy.bits .f32 = 32 ∨ (Rect.block (s := S32x512x512) S8x512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x512x128.size a ≤ S32x512x512.size a
  hwx1_5 : ∀ i : grid1.Coords, EltTy.bits .f32 = 32 ∨ (Rect.block (s := S32x512x512) S8x512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x512x128.size a ≤ S32x512x512.size a
  hwx1_6 : ∀ i : grid1.Coords, EltTy.bits .f32 = 32 ∨ (Rect.block (s := S32x512x512) S8x512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x512x128.size a ≤ S32x512x512.size a
  hwx1_7 : ∀ i : grid1.Coords, EltTy.bits .f32 = 32 ∨ (Rect.block (s := S32x512x512) S8x512x128.size (cc1_transform_7 i) (hinb1_7 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S8x512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S8x512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S8x512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S8x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S8x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S8x512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S8x512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S8x512x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S8x512x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_2) S8x512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x512 : Shape := ⟨2, ![32, 512]⟩
abbrev S32x512x512 : Shape := ⟨3, ![32, 512, 512]⟩
abbrev S512x512 : Shape := ⟨2, ![512, 512]⟩
abbrev S_ : Shape := ⟨0, ![]⟩
abbrev S32x512x1 : Shape := ⟨3, ![32, 512, 1]⟩
abbrev S32x1x512 : Shape := ⟨3, ![32, 1, 512]⟩

abbrev nBuf : Space → Nat
  | .hbm => 115
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x512x512, .f32⟩
  | .hbm, ⟨5, _⟩ => ⟨S32x512x512, .f32⟩
  | .hbm, ⟨6, _⟩ => ⟨S32x512x512, .f32⟩
  | .hbm, ⟨7, _⟩ => ⟨S32x512x512, .f32⟩
  | .hbm, ⟨8, _⟩ => ⟨S32x512x512, .f32⟩
  | .hbm, ⟨9, _⟩ => ⟨S32x512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S_, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S_, .f32⟩
  | .hbm, ⟨28, _⟩ => ⟨S32x512, .f32⟩
  | .hbm, ⟨29, _⟩ => ⟨S32x512, .i1⟩
  | .hbm, ⟨30, _⟩ => ⟨S32x512, .f32⟩
  | .hbm, ⟨31, _⟩ => ⟨S_, .f32⟩
  | .hbm, ⟨32, _⟩ => ⟨S32x512, .f32⟩
  | .hbm, ⟨33, _⟩ => ⟨S32x512, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x512, .f32⟩
  | .hbm, ⟨39, _⟩ => ⟨S512x512, .f32⟩
  | .hbm, ⟨40, _⟩ => ⟨S32x512, .f32⟩
  | .hbm, ⟨41, _⟩ => ⟨S32x512, .f32⟩
  | .hbm, ⟨42, _⟩ => ⟨S512x512, .f32⟩
  | .hbm, ⟨43, _⟩ => ⟨S32x512, .f32⟩
  | .hbm, ⟨44, _⟩ => ⟨S32x512, .f32⟩
  | .hbm, ⟨45, _⟩ => ⟨S32x512x1, .f32⟩
  | .hbm, ⟨46, _⟩ => ⟨S32x1x512, .f32⟩
  | .hbm, ⟨47, _⟩ => ⟨S_, .f32⟩
  | .hbm, ⟨48, _⟩ => ⟨S32x512x512, .f32⟩
  | .hbm, ⟨49, _⟩ => ⟨S32x512x512, .f32⟩
  | .hbm, ⟨50, _⟩ => ⟨S_, .f32⟩
  | .hbm, ⟨51, _⟩ => ⟨S32x1x512, .f32⟩
  | .hbm, ⟨52, _⟩ => ⟨S32x1x512, .f32⟩
  | .hbm, ⟨53, _⟩ => ⟨S32x512x512, .f32⟩
  | .hbm, ⟨54, _⟩ => ⟨S32x512x512, .f32⟩
  | .hbm, ⟨55, _⟩ => ⟨S32x512x512, .f32⟩
  | .hbm, ⟨56, _⟩ => ⟨S_, .f32⟩
  | .hbm, ⟨57, _⟩ => ⟨S32x512x512, .f32⟩
  | .hbm, ⟨58, _⟩ => ⟨S32x512x512, .f32⟩
  | .hbm, ⟨59, _⟩ => ⟨S_, .f32⟩
  | .hbm, ⟨60, _⟩ => ⟨S32x512x1, .f32⟩
  | .hbm, ⟨61, _⟩ => ⟨S32x512x1, .f32⟩
  | .hbm, ⟨62, _⟩ => ⟨S_, .f32⟩
  | .hbm, ⟨63, _⟩ => ⟨S32x512x512, .f32⟩
  | .hbm, ⟨64, _⟩ => ⟨S32x512x512, .f32⟩
  | .hbm, ⟨65, _⟩ => ⟨S32x512x512, .f32⟩
  | .hbm, ⟨66, _⟩ => ⟨S32x512x512, .f32⟩
  | .hbm, ⟨67, _⟩ => ⟨S32x512x512, .f32⟩
  | .hbm, ⟨68, _⟩ => ⟨S_, .f32⟩
  | .hbm, ⟨69, _⟩ => ⟨S32x512x1, .f32⟩
  | .hbm, ⟨70, _⟩ => ⟨S32x512x1, .f32⟩
  | .hbm, ⟨71, _⟩ => ⟨S_, .f32⟩
  | .hbm, ⟨72, _⟩ => ⟨S32x1x512, .f32⟩
  | .hbm, ⟨73, _⟩ => ⟨S32x1x512, .f32⟩
  | .hbm, ⟨74, _⟩ => ⟨S32x512x512, .f32⟩
  | .hbm, ⟨75, _⟩ => ⟨S32x512x512, .f32⟩
  | .hbm, ⟨76, _⟩ => ⟨S32x512x512, .f32⟩
  | .hbm, ⟨77, _⟩ => ⟨S32x512x512, .f32⟩
  | .hbm, ⟨78, _⟩ => ⟨S32x512x512, .f32⟩
  | .hbm, ⟨79, _⟩ => ⟨S32x512x512, .f32⟩
  | .hbm, ⟨80, _⟩ => ⟨S32x512x1, .f32⟩
  | .hbm, ⟨81, _⟩ => ⟨S32x1x512, .f32⟩
  | .hbm, ⟨82, _⟩ => ⟨S_, .f32⟩
  | .hbm, ⟨83, _⟩ => ⟨S32x512x512, .f32⟩
  | .hbm, ⟨84, _⟩ => ⟨S32x512x512, .f32⟩
  | .hbm, ⟨85, _⟩ => ⟨S_, .f32⟩
  | .hbm, ⟨86, _⟩ => ⟨S32x1x512, .f32⟩
  | .hbm, ⟨87, _⟩ => ⟨S32x1x512, .f32⟩
  | .hbm, ⟨88, _⟩ => ⟨S32x512x512, .f32⟩
  | .hbm, ⟨89, _⟩ => ⟨S32x512x512, .f32⟩
  | .hbm, ⟨90, _⟩ => ⟨S32x512x512, .f32⟩
  | .hbm, ⟨91, _⟩ => ⟨S_, .f32⟩
  | .hbm, ⟨92, _⟩ => ⟨S32x512x512, .f32⟩
  | .hbm, ⟨93, _⟩ => ⟨S32x512x512, .f32⟩
  | .hbm, ⟨94, _⟩ => ⟨S_, .f32⟩
  | .hbm, ⟨95, _⟩ => ⟨S32x512x1, .f32⟩
  | .hbm, ⟨96, _⟩ => ⟨S32x512x1, .f32⟩
  | .hbm, ⟨97, _⟩ => ⟨S_, .f32⟩
  | .hbm, ⟨98, _⟩ => ⟨S32x512x512, .f32⟩
  | .hbm, ⟨99, _⟩ => ⟨S32x512x512, .f32⟩
  | .hbm, ⟨100, _⟩ => ⟨S32x512x512, .f32⟩
  | .hbm, ⟨101, _⟩ => ⟨S32x512x512, .f32⟩
  | .hbm, ⟨102, _⟩ => ⟨S32x512x512, .f32⟩
  | .hbm, ⟨103, _⟩ => ⟨S_, .f32⟩
  | .hbm, ⟨104, _⟩ => ⟨S32x512x1, .f32⟩
  | .hbm, ⟨105, _⟩ => ⟨S32x512x1, .f32⟩
  | .hbm, ⟨106, _⟩ => ⟨S_, .f32⟩
  | .hbm, ⟨107, _⟩ => ⟨S32x1x512, .f32⟩
  | .hbm, ⟨108, _⟩ => ⟨S32x1x512, .f32⟩
  | .hbm, ⟨109, _⟩ => ⟨S32x512x512, .f32⟩
  | .hbm, ⟨110, _⟩ => ⟨S32x512x512, .f32⟩
  | .hbm, ⟨111, _⟩ => ⟨S32x512x512, .f32⟩
  | .hbm, ⟨112, _⟩ => ⟨S32x512x512, .f32⟩
  | .hbm, ⟨113, _⟩ => ⟨S32x512x512, .f32⟩
  | .hbm, ⟨114, _⟩ => ⟨S32x512x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  transposes_S512x512_S512x512_1_0 : S512x512.Transposes [1, 0] S512x512
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S_S32x512x512 : S_.BroadcastsInDim S32x512x512 (![] : Fin 0 → Fin S32x512x512.rank)
  bcast_S_S32x1x512 : S_.BroadcastsInDim S32x1x512 (![] : Fin 0 → Fin S32x1x512.rank)
  bcast_S32x1x512_S32x512x512_0_1_2 : S32x1x512.BroadcastsInDim S32x512x512 (![0, 1, 2] : Fin 3 → Fin S32x512x512.rank)
  bcast_S_S32x512x1 : S_.BroadcastsInDim S32x512x1 (![] : Fin 0 → Fin S32x512x1.rank)
  bcast_S32x512x1_S32x512x512_0_1_2 : S32x512x1.BroadcastsInDim S32x512x512 (![0, 1, 2] : Fin 3 → Fin S32x512x512.rank)
  dot_S32x512_S512x512_S32x512_1_0_0_1_n_n_wf : DotDims.WF S32x512 S512x512 S32x512 [1] [0] [0] [1] [] []

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

class Facts : Prop extends Facts₀ where

variable [Facts]
-- ==== Proof.Spec.lean ====
/-
  The correlation-sensor update, as mathematics. Per batch entry `b`, presynaptic neuron `p` and postsynaptic neuron
  `q`, with `pre = zpre[b, p]` and `post = zpost[b, q]` the two spike rows and `pp`, `corr`, `anti` the three per-synapse
  states at `[b, p, q]`:

    flag    ↦ pre + ((1 - pre) · (1 - post)) · pp          (set by a pre spike, cleared by a post spike, else held)
    causal  ↦ corr · 0.99 + (1 · post) · pp                (decays; bumped by a post spike while the flag is up)
    acausal ↦ anti · 0.99 + (1 · pre) · (1 - pp)           (decays; bumped by a pre spike while the flag is down)

  with the operations grouped exactly so, `0.99` and `1` the binary32 words `0x3F7D70A4` and `0x3F800000`. They are stated
  for any float instance: nothing below uses a law of arithmetic, only WHICH entry of which array an entry of the result
  reads. First as functions of whole arrays `[32, 512]` and `[32, 512, 512]`; then as the same trees of vector operations
  on one tile `[8, 512]`, `[8, 128]`, `[8, 512, 128]` — a column `[8, 512, 1]` and a lane row `[8, 1, 128]` stretched over the
  tile —, read at an element.
-/
import Idealize.ShloMosaic.PureOps.Ideal
import Idealize.ShloMosaic.Lib.ValueIdx
import Idealize.ShloMosaic.Lib.Pipeline.Value

noncomputable section

namespace Cert.Corr

open Idealize.ShloMosaic Idealize.ShloMosaic.ValueIdx

/-! ## Shapes -/

/-- A spike row: batch × neuron. -/
abbrev Row : Shape := ⟨2, ![32, 512]⟩
/-- A per-synapse state: batch × pre × post. -/
abbrev Syn : Shape := ⟨3, ![32, 512, 512]⟩
/-- One tile of the presynaptic row, of the postsynaptic row, of a synapse state. -/
abbrev TPre : Shape := ⟨2, ![8, 512]⟩
abbrev TPost : Shape := ⟨2, ![8, 128]⟩
abbrev TSyn : Shape := ⟨3, ![8, 512, 128]⟩
/-- The presynaptic tile as a column, the postsynaptic tile as a lane row. -/
abbrev TCol : Shape := ⟨3, ![8, 512, 1]⟩
abbrev TLane : Shape := ⟨3, ![8, 1, 128]⟩

/-- The presynaptic entry `[b, p]` a synapse `[b, p, q]` reads. -/
abbrev preOf (i : Syn.Idx) : Row.Idx := fun a => match a with
  | ⟨0, _⟩ => ⟨(i 0).val, (i 0).isLt⟩
  | ⟨1, _⟩ => ⟨(i 1).val, (i 1).isLt⟩
/-- The postsynaptic entry `[b, q]` a synapse `[b, p, q]` reads. -/
abbrev postOf (i : Syn.Idx) : Row.Idx := fun a => match a with
  | ⟨0, _⟩ => ⟨(i 0).val, (i 0).isLt⟩
  | ⟨1, _⟩ => ⟨(i 2).val, (i 2).isLt⟩

variable {F : FTy → Type} [FloatOps F]

/-! ## The three rules on whole arrays -/

/-- The flag: `pre + ((1 - pre) · (1 - post)) · pp`. -/
def flagNew (pre post : Row.Idx → F .f32) (pp : Syn.Idx → F .f32) : Syn.Idx → F .f32 := fun i =>
  FloatOps.addf (pre (preOf i))
    (FloatOps.mulf
      (FloatOps.mulf (FloatOps.subf (FloatOps.ofBits .f32 0x3F800000#32) (pre (preOf i)))
        (FloatOps.subf (FloatOps.ofBits .f32 0x3F800000#32) (post (postOf i))))
      (pp i))

/-- The causal trace: `corr · 0.99 + (1 · post) · pp`. -/
def causalNew (post : Row.Idx → F .f32) (pp corr : Syn.Idx → F .f32) : Syn.Idx → F .f32 := fun i =>
  FloatOps.addf (FloatOps.mulf (corr i) (FloatOps.ofBits .f32 0x3F7D70A4#32))
    (FloatOps.mulf (FloatOps.mulf (FloatOps.ofBits .f32 0x3F800000#32) (post (postOf i))) (pp i))

/-- The acausal trace: `anti · 0.99 + (1 · pre) · (1 - pp)`. -/
def acausalNew (pre : Row.Idx → F .f32) (pp anti : Syn.Idx → F .f32) : Syn.Idx → F .f32 := fun i =>
  FloatOps.addf (FloatOps.mulf (anti i) (FloatOps.ofBits .f32 0x3F7D70A4#32))
    (FloatOps.mulf (FloatOps.mulf (FloatOps.ofBits .f32 0x3F800000#32) (pre (preOf i)))
      (FloatOps.subf (FloatOps.ofBits .f32 0x3F800000#32) (pp i)))

/-! ## A column and a lane row, stretched over a tile -/

section Layout
variable {α : Type}

/-- The presynaptic tile viewed as a column reads `[b, p]` at `[b, p, 0]`: the two have the same row-major position. -/
theorem col_apply (x : TPre.Idx → α) (h : TPre.ShapeCasts TCol) (b : Fin 8) (p : Fin 512) (z : Fin 1) :
    shapeCast TCol x h (ix3 b p z) = x (ix2 b p) :=
  shapeCast_apply x h (ix3 b p z) (ix2 b p) (by
    rw [Shape.rowMajor_val_two, Shape.rowMajor_val_three]
    show b.val * 512 + p.val = (b.val * 512 + p.val) * 1 + z.val
    have := z.isLt; omega)

/-- The postsynaptic tile viewed as a lane row reads `[b, q]` at `[b, 0, q]`. -/
theorem lane_apply (x : TPost.Idx → α) (h : TPost.ShapeCasts TLane) (b : Fin 8) (z : Fin 1) (q : Fin 128) :
    shapeCast TLane x h (ix3 b z q) = x (ix2 b q) :=
  shapeCast_apply x h (ix3 b z q) (ix2 b q) (by
    rw [Shape.rowMajor_val_two, Shape.rowMajor_val_three]
    show b.val * 128 + q.val = (b.val * 1 + z.val) * 128 + q.val
    have := z.isLt; omega)

/-- A column stretched over the tile reads its own row: `[b, p, q] ↦ [b, p, 0]`. -/
theorem stretchCol_apply (v : TCol.Idx → α) (h : TCol.Broadcasts TSyn) (b : Fin 8) (p : Fin 512) (q : Fin 128) :
    broadcastTo TSyn v h (ix3 b p q) = v (ix3 b p (0 : Fin 1)) :=
  broadcastTo_apply v h (ix3 b p q) (ix3 b p (0 : Fin 1)) (fun a => match a with
    | ⟨0, _⟩ => by show b.val = if (8 : Nat) = 1 then 0 else b.val; rw [if_neg (by decide)]
    | ⟨1, _⟩ => by show p.val = if (512 : Nat) = 1 then 0 else p.val; rw [if_neg (by decide)]
    | ⟨2, _⟩ => by show 0 = if (1 : Nat) = 1 then 0 else q.val; rw [if_pos rfl])

/-- A lane row stretched over the tile reads its own lane: `[b, p, q] ↦ [b, 0, q]`. -/
theorem stretchLane_apply (v : TLane.Idx → α) (h : TLane.Broadcasts TSyn) (b : Fin 8) (p : Fin 512) (q : Fin 128) :
    broadcastTo TSyn v h (ix3 b p q) = v (ix3 b (0 : Fin 1) q) :=
  broadcastTo_apply v h (ix3 b p q) (ix3 b (0 : Fin 1) q) (fun a => match a with
    | ⟨0, _⟩ => by show b.val = if (8 : Nat) = 1 then 0 else b.val; rw [if_neg (by decide)]
    | ⟨1, _⟩ => by show 0 = if (1 : Nat) = 1 then 0 else p.val; rw [if_pos rfl]
    | ⟨2, _⟩ => by show q.val = if (128 : Nat) = 1 then 0 else q.val; rw [if_neg (by decide)])

end Layout

/-! ## The three rules on one tile, as trees of vector operations -/

/-- The presynaptic tile as a column. -/
def colOf (x0 : Vec F TPre .f32) : FVec F TCol .f32 := shapeCast TCol x0 (by decide)
/-- The postsynaptic tile as a lane row (through a cast to its own shape first). -/
def laneOf (x1 : Vec F TPost .f32) : FVec F TLane .f32 :=
  shapeCast TLane (shapeCast TPost x1 (by decide) : FVec F TPost .f32) (by decide)

/-- The flag's tile. -/
def flagTile (x0 : Vec F TPre .f32) (x1 : Vec F TPost .f32) (x2 : Vec F TSyn .f32) : FVec F TSyn .f32 :=
  addf (broadcastTo TSyn (colOf x0) (by decide))
    (mulf
      (mulf (broadcastTo TSyn (subf (broadcast TCol (FloatOps.ofBits .f32 0x3F800000#32)) (colOf x0)) (by decide))
        (broadcastTo TSyn (subf (broadcast TLane (FloatOps.ofBits .f32 0x3F800000#32)) (laneOf x1)) (by decide)))
      x2)

/-- The causal trace's tile. -/
def causalTile (x1 : Vec F TPost .f32) (x2 x3 : Vec F TSyn .f32) : FVec F TSyn .f32 :=
  addf (mulf x3 (broadcast TSyn (FloatOps.ofBits .f32 0x3F7D70A4#32)))
    (mulf (broadcastTo TSyn (mulf (broadcast TLane (FloatOps.ofBits .f32 0x3F800000#32)) (laneOf x1)) (by decide)) x2)

/-- The acausal trace's tile. -/
def acausalTile (x0 : Vec F TPre .f32) (x2 x4 : Vec F TSyn .f32) : FVec F TSyn .f32 :=
  addf (mulf x4 (broadcast TSyn (FloatOps.ofBits .f32 0x3F7D70A4#32)))
    (mulf (broadcastTo TSyn (mulf (broadcast TCol (FloatOps.ofBits .f32 0x3F800000#32)) (colOf x0)) (by decide))
      (subf (broadcast TSyn (FloatOps.ofBits .f32 0x3F800000#32)) x2))

/-- The flag's tile at `[b, p, q]`: the rule on the tile's own entries. -/
theorem flagTile_apply (x0 : Vec F TPre .f32) (x1 : Vec F TPost .f32) (x2 : Vec F TSyn .f32)
    (b : Fin 8) (p : Fin 512) (q : Fin 128) :
    flagTile x0 x1 x2 (ix3 b p q) =
      FloatOps.addf (x0 (ix2 b p))
        (FloatOps.mulf
          (FloatOps.mulf (FloatOps.subf (FloatOps.ofBits .f32 0x3F800000#32) (x0 (ix2 b p)))
            (FloatOps.subf (FloatOps.ofBits .f32 0x3F800000#32) (x1 (ix2 b q))))
          (x2 (ix3 b p q))) := by
  show FloatOps.addf (broadcastTo TSyn (colOf x0) _ (ix3 b p q))
      (FloatOps.mulf
        (FloatOps.mulf (broadcastTo TSyn (subf (broadcast TCol (FloatOps.ofBits .f32 0x3F800000#32)) (colOf x0)) _ (ix3 b p q))
          (broadcastTo TSyn (subf (broadcast TLane (FloatOps.ofBits .f32 0x3F800000#32)) (laneOf x1)) _ (ix3 b p q)))
        (x2 (ix3 b p q))) = _
  rw [stretchCol_apply, stretchCol_apply, stretchLane_apply]
  show FloatOps.addf (shapeCast TCol x0 _ (ix3 b p (0 : Fin 1)))
      (FloatOps.mulf
        (FloatOps.mulf (FloatOps.subf (FloatOps.ofBits .f32 0x3F800000#32) (shapeCast TCol x0 _ (ix3 b p (0 : Fin 1))))
          (FloatOps.subf (FloatOps.ofBits .f32 0x3F800000#32)
            (shapeCast TLane (shapeCast TPost x1 _ : FVec F TPost .f32) _ (ix3 b (0 : Fin 1) q))))
        (x2 (ix3 b p q))) = _
  rw [col_apply, lane_apply, shapeCast_self]

/-- The causal trace's tile at `[b, p, q]`. -/
theorem causalTile_apply (x1 : Vec F TPost .f32) (x2 x3 : Vec F TSyn .f32) (b : Fin 8) (p : Fin 512) (q : Fin 128) :
    causalTile x1 x2 x3 (ix3 b p q) =
      FloatOps.addf (FloatOps.mulf (x3 (ix3 b p q)) (FloatOps.ofBits .f32 0x3F7D70A4#32))
        (FloatOps.mulf (FloatOps.mulf (FloatOps.ofBits .f32 0x3F800000#32) (x1 (ix2 b q))) (x2 (ix3 b p q))) := by
  show FloatOps.addf (FloatOps.mulf (x3 (ix3 b p q)) (FloatOps.ofBits .f32 0x3F7D70A4#32))
      (FloatOps.mulf
        (broadcastTo TSyn (mulf (broadcast TLane (FloatOps.ofBits .f32 0x3F800000#32)) (laneOf x1)) _ (ix3 b p q))
        (x2 (ix3 b p q))) = _
  rw [stretchLane_apply]
  show FloatOps.addf (FloatOps.mulf (x3 (ix3 b p q)) (FloatOps.ofBits .f32 0x3F7D70A4#32))
      (FloatOps.mulf
        (FloatOps.mulf (FloatOps.ofBits .f32 0x3F800000#32)
          (shapeCast TLane (shapeCast TPost x1 _ : FVec F TPost .f32) _ (ix3 b (0 : Fin 1) q)))
        (x2 (ix3 b p q))) = _
  rw [lane_apply, shapeCast_self]

/-- The acausal trace's tile at `[b, p, q]`. -/
theorem acausalTile_apply (x0 : Vec F TPre .f32) (x2 x4 : Vec F TSyn .f32) (b : Fin 8) (p : Fin 512) (q : Fin 128) :
    acausalTile x0 x2 x4 (ix3 b p q) =
      FloatOps.addf (FloatOps.mulf (x4 (ix3 b p q)) (FloatOps.ofBits .f32 0x3F7D70A4#32))
        (FloatOps.mulf (FloatOps.mulf (FloatOps.ofBits .f32 0x3F800000#32) (x0 (ix2 b p)))
          (FloatOps.subf (FloatOps.ofBits .f32 0x3F800000#32) (x2 (ix3 b p q)))) := by
  show FloatOps.addf (FloatOps.mulf (x4 (ix3 b p q)) (FloatOps.ofBits .f32 0x3F7D70A4#32))
      (FloatOps.mulf
        (broadcastTo TSyn (mulf (broadcast TCol (FloatOps.ofBits .f32 0x3F800000#32)) (colOf x0)) _ (ix3 b p q))
        (FloatOps.subf (FloatOps.ofBits .f32 0x3F800000#32) (x2 (ix3 b p q)))) = _
  rw [stretchCol_apply]
  show FloatOps.addf (FloatOps.mulf (x4 (ix3 b p q)) (FloatOps.ofBits .f32 0x3F7D70A4#32))
      (FloatOps.mulf
        (FloatOps.mulf (FloatOps.ofBits .f32 0x3F800000#32) (shapeCast TCol x0 _ (ix3 b p (0 : Fin 1))))
        (FloatOps.subf (FloatOps.ofBits .f32 0x3F800000#32) (x2 (ix3 b p q)))) = _
  rw [col_apply]

end Cert.Corr

end
-- ==== Proof.Region0.lean ====
/-
  The first kernel's three output arrays, whatever its region finds in its five input arrays. The grid is 4 × 4:
  point `(bi, qi)` works on batch rows `8·bi … 8·bi+7` and postsynaptic columns `128·qi … 128·qi+127`, over all 512
  presynaptic rows. Each point stores one whole tile per output, and that tile is the tile of the whole-array rule:
  entry `[b, p, q]` of the tile sits at `[8·bi + b, p, 128·qi + q]` of the array, the presynaptic tile's `[b, p]` at
  `[8·bi + b, p]`, the postsynaptic tile's `[b, q]` at `[8·bi + b, 128·qi + q]`. The sixteen tiles cover the array, so
  after the run each output array IS the rule of the input arrays.
-/
import proofs.«128571_j75737453298145_1_alg».proof.Proof.Gen.KernelIdeal.Frame
import proofs.«128571_j75737453298145_1_alg».proof.Proof.Spec
import Idealize.ShloMosaic.Lib.ValueIdx
import Idealize.ShloMosaic.Lib.Pipeline.Value

set_option maxRecDepth 16384

noncomputable section

namespace Cert.KernelIdeal.Region0

open Cert.KernelIdeal Cert.KernelIdeal.Gen Cert.Corr
open Idealize.ShloMosaic Idealize.ShloMosaic.TcCoe Idealize.ShloMosaic.ValueIdx Idealize.SL.Sem
open Idealize.ShloMosaic.Pipeline (Dat Cfg Window)

variable {F : FTy → Type} [FloatOps F]

/-! ## The body's three stored values are the tile trees -/

theorem hz2 : (![0, 0] : Fin 2 → Nat) = fun _ => 0 := funext fun a => by fin_cases a <;> rfl
theorem hz3 : (![0, 0, 0] : Fin 3 → Nat) = fun _ => 0 := funext fun a => by fin_cases a <;> rfl

theorem stored_flag (x0 : Vec F S8x512 .f32) (x1 : Vec F S8x128 .f32) (x2 : Vec F S8x512x128 .f32) :
    k0_pay1 (k0_pay2 x0) x2 (k0_pay6 x0) (k0_pay7 x1) = flagTile x0 x1 x2 := rfl
theorem stored_causal (x1 : Vec F S8x128 .f32) (x2 x3 : Vec F S8x512x128 .f32) :
    k0_pay4 x1 x2 x3 = causalTile x1 x2 x3 := rfl
theorem stored_acausal (x0 : Vec F S8x512 .f32) (x2 x4 : Vec F S8x512x128 .f32) :
    k0_pay5 x0 x2 x4 = acausalTile x0 x2 x4 := rfl

/-! ## The index maps, decided over the sixteen points -/

/-- The presynaptic window follows the outputs' batch tile and stays at row tile 0; the postsynaptic window follows
    their batch tile and their column tile. -/
theorem idx_rows : ∀ t : Fin cfg0.N,
    win0_0.index t (0 : Fin 2) = win0_5.index t (0 : Fin 3) ∧ win0_0.index t (1 : Fin 2) = 0
    ∧ win0_1.index t (0 : Fin 2) = win0_5.index t (0 : Fin 3) ∧ win0_1.index t (1 : Fin 2) = win0_5.index t (2 : Fin 3) :=
  (by decide +kernel : ∀ t : Fin grid0.N, _)

/-- The three synapse inputs and the other two outputs move with the first output, tile for tile. -/
theorem idx_syn : ∀ t : Fin cfg0.N,
    (win0_2.index t (0 : Fin 3) = win0_5.index t (0 : Fin 3) ∧ win0_2.index t (1 : Fin 3) = win0_5.index t (1 : Fin 3) ∧ win0_2.index t (2 : Fin 3) = win0_5.index t (2 : Fin 3))
    ∧ (win0_3.index t (0 : Fin 3) = win0_5.index t (0 : Fin 3) ∧ win0_3.index t (1 : Fin 3) = win0_5.index t (1 : Fin 3) ∧ win0_3.index t (2 : Fin 3) = win0_5.index t (2 : Fin 3))
    ∧ (win0_4.index t (0 : Fin 3) = win0_5.index t (0 : Fin 3) ∧ win0_4.index t (1 : Fin 3) = win0_5.index t (1 : Fin 3) ∧ win0_4.index t (2 : Fin 3) = win0_5.index t (2 : Fin 3))
    ∧ (win0_6.index t (0 : Fin 3) = win0_5.index t (0 : Fin 3) ∧ win0_6.index t (1 : Fin 3) = win0_5.index t (1 : Fin 3) ∧ win0_6.index t (2 : Fin 3) = win0_5.index t (2 : Fin 3))
    ∧ (win0_7.index t (0 : Fin 3) = win0_5.index t (0 : Fin 3) ∧ win0_7.index t (1 : Fin 3) = win0_5.index t (1 : Fin 3) ∧ win0_7.index t (2 : Fin 3) = win0_5.index t (2 : Fin 3)) :=
  (by decide +kernel : ∀ t : Fin grid0.N, _)

/-- The first output's tile indices: row tile 0 always. -/
theorem idx_out : ∀ t : Fin cfg0.N, win0_5.index t (1 : Fin 3) = 0 :=
  (by decide +kernel : ∀ t : Fin grid0.N, _)

/-- Every one of the 4 × 4 tiles is some point's. -/
theorem idx_onto : ∀ (q0 : Fin 4) (q2 : Fin 4), ∃ t : Fin cfg0.N, win0_5.index t = ![q0.val, 0, q2.val] :=
  (by decide +kernel : ∀ (q0 : Fin 4) (q2 : Fin 4), ∃ t : Fin grid0.N, win0_5.index t = ![q0.val, 0, q2.val])

/-! ## Where a tile's entries sit in the arrays -/

/-- The array position of the first output's tile entry `[b, p, q]` at point `t`. -/
abbrev at5 (t : Fin cfg0.N) (b : Fin 8) (p : Fin 512) (q : Fin 128) : Syn.Idx :=
  ((cfg0.win 5).blk t).view.emb (ix3 b p q)

theorem at_pre (t : Fin cfg0.N) (b : Fin 8) (p : Fin 512) (q : Fin 128) :
    (((cfg0.win 0).blk t).view.emb (ix2 b p) : Row.Idx) = preOf (at5 t b p q) := by
  obtain ⟨e0, e1, -, -⟩ := idx_rows t
  have o1 := idx_out t
  funext a; apply Fin.ext
  match a with
  | ⟨0, _⟩ => show win0_0.index t (0 : Fin 2) * 8 + 1 * b.val = win0_5.index t (0 : Fin 3) * 8 + 1 * b.val; omega
  | ⟨1, _⟩ => show win0_0.index t (1 : Fin 2) * 512 + 1 * p.val = win0_5.index t (1 : Fin 3) * 512 + 1 * p.val; omega

theorem at_post (t : Fin cfg0.N) (b : Fin 8) (p : Fin 512) (q : Fin 128) :
    (((cfg0.win 1).blk t).view.emb (ix2 b q) : Row.Idx) = postOf (at5 t b p q) := by
  obtain ⟨-, -, e0, e1⟩ := idx_rows t
  funext a; apply Fin.ext
  match a with
  | ⟨0, _⟩ => show win0_1.index t (0 : Fin 2) * 8 + 1 * b.val = win0_5.index t (0 : Fin 3) * 8 + 1 * b.val; omega
  | ⟨1, _⟩ => show win0_1.index t (1 : Fin 2) * 128 + 1 * q.val = win0_5.index t (2 : Fin 3) * 128 + 1 * q.val; omega

theorem at_2 (t : Fin cfg0.N) (b : Fin 8) (p : Fin 512) (q : Fin 128) :
    (((cfg0.win 2).blk t).view.emb (ix3 b p q) : Syn.Idx) = at5 t b p q := by
  obtain ⟨⟨e0, e1, e2⟩, -⟩ := idx_syn t
  funext a; apply Fin.ext
  match a with
  | ⟨0, _⟩ => show win0_2.index t (0 : Fin 3) * 8 + 1 * b.val = win0_5.index t (0 : Fin 3) * 8 + 1 * b.val; omega
  | ⟨1, _⟩ => show win0_2.index t (1 : Fin 3) * 512 + 1 * p.val = win0_5.index t (1 : Fin 3) * 512 + 1 * p.val; omega
  | ⟨2, _⟩ => show win0_2.index t (2 : Fin 3) * 128 + 1 * q.val = win0_5.index t (2 : Fin 3) * 128 + 1 * q.val; omega

theorem at_3 (t : Fin cfg0.N) (b : Fin 8) (p : Fin 512) (q : Fin 128) :
    (((cfg0.win 3).blk t).view.emb (ix3 b p q) : Syn.Idx) = at5 t b p q := by
  obtain ⟨-, ⟨e0, e1, e2⟩, -⟩ := idx_syn t
  funext a; apply Fin.ext
  match a with
  | ⟨0, _⟩ => show win0_3.index t (0 : Fin 3) * 8 + 1 * b.val = win0_5.index t (0 : Fin 3) * 8 + 1 * b.val; omega
  | ⟨1, _⟩ => show win0_3.index t (1 : Fin 3) * 512 + 1 * p.val = win0_5.index t (1 : Fin 3) * 512 + 1 * p.val; omega
  | ⟨2, _⟩ => show win0_3.index t (2 : Fin 3) * 128 + 1 * q.val = win0_5.index t (2 : Fin 3) * 128 + 1 * q.val; omega

theorem at_4 (t : Fin cfg0.N) (b : Fin 8) (p : Fin 512) (q : Fin 128) :
    (((cfg0.win 4).blk t).view.emb (ix3 b p q) : Syn.Idx) = at5 t b p q := by
  obtain ⟨-, -, ⟨e0, e1, e2⟩, -⟩ := idx_syn t
  funext a; apply Fin.ext
  match a with
  | ⟨0, _⟩ => show win0_4.index t (0 : Fin 3) * 8 + 1 * b.val = win0_5.index t (0 : Fin 3) * 8 + 1 * b.val; omega
  | ⟨1, _⟩ => show win0_4.index t (1 : Fin 3) * 512 + 1 * p.val = win0_5.index t (1 : Fin 3) * 512 + 1 * p.val; omega
  | ⟨2, _⟩ => show win0_4.index t (2 : Fin 3) * 128 + 1 * q.val = win0_5.index t (2 : Fin 3) * 128 + 1 * q.val; omega

theorem at_6 (t : Fin cfg0.N) (b : Fin 8) (p : Fin 512) (q : Fin 128) :
    (((cfg0.win 6).blk t).view.emb (ix3 b p q) : Syn.Idx) = at5 t b p q := by
  obtain ⟨-, -, -, ⟨e0, e1, e2⟩, -⟩ := idx_syn t
  funext a; apply Fin.ext
  match a with
  | ⟨0, _⟩ => show win0_6.index t (0 : Fin 3) * 8 + 1 * b.val = win0_5.index t (0 : Fin 3) * 8 + 1 * b.val; omega
  | ⟨1, _⟩ => show win0_6.index t (1 : Fin 3) * 512 + 1 * p.val = win0_5.index t (1 : Fin 3) * 512 + 1 * p.val; omega
  | ⟨2, _⟩ => show win0_6.index t (2 : Fin 3) * 128 + 1 * q.val = win0_5.index t (2 : Fin 3) * 128 + 1 * q.val; omega

theorem at_7 (t : Fin cfg0.N) (b : Fin 8) (p : Fin 512) (q : Fin 128) :
    (((cfg0.win 7).blk t).view.emb (ix3 b p q) : Syn.Idx) = at5 t b p q := by
  obtain ⟨-, -, -, -, ⟨e0, e1, e2⟩⟩ := idx_syn t
  funext a; apply Fin.ext
  match a with
  | ⟨0, _⟩ => show win0_7.index t (0 : Fin 3) * 8 + 1 * b.val = win0_5.index t (0 : Fin 3) * 8 + 1 * b.val; omega
  | ⟨1, _⟩ => show win0_7.index t (1 : Fin 3) * 512 + 1 * p.val = win0_5.index t (1 : Fin 3) * 512 + 1 * p.val; omega
  | ⟨2, _⟩ => show win0_7.index t (2 : Fin 3) * 128 + 1 * q.val = win0_5.index t (2 : Fin 3) * 128 + 1 * q.val; omega

/-! ## What a point writes back -/

section Values
variable (V : (c : Dev nD) → (b : Ref sig .tc) → Buf (Elt F) ((c : Thread nD τ).loc b))

/-- Point `t` writes back, to the flag's array, its tile of the flag rule of the arrays as the region finds them. -/
theorem flushed_flag (c : Dev nD) (t : Fin cfg0.N) :
    (dat0 V c).flushed 5 t = ((cfg0.win 5).blk t).view.read (Elt F) (flagNew (V c main_arg0) (V c main_v13) (V c main_arg4)) := by
  show (cfg0.win 5).cut (grid0.coords t) ((dat0 V c).after 5 t) = _
  rw [after0_5]
  unfold out0_5
  rw [View.canon_unit_zero hz3]
  simp only [View.ld_unit_zero (S := S8x512) hz2, View.ld_unit_zero (S := S8x128) hz2, View.ld_unit_zero (S := S8x512x128) hz3]
  rw [stored_flag]
  funext j
  obtain ⟨b, p, q, rfl⟩ : ∃ (b : Fin 8) (p : Fin 512) (q : Fin 128), j = ix3 b p q :=
    ⟨j 0, j 1, j 2, eq_ix3 (n0 := 8) (n1 := 512) (n2 := 128) j⟩
  refine (flagTile_apply (iblk0 V c 0 t) (iblk0 V c 1 t) (iblk0 V c 2 t) b p q).trans ?_
  show FloatOps.addf (V c main_arg0 (((cfg0.win 0).blk t).view.emb (ix2 b p)))
      (FloatOps.mulf
        (FloatOps.mulf (FloatOps.subf (FloatOps.ofBits .f32 0x3F800000#32) (V c main_arg0 (((cfg0.win 0).blk t).view.emb (ix2 b p))))
          (FloatOps.subf (FloatOps.ofBits .f32 0x3F800000#32) (V c main_v13 (((cfg0.win 1).blk t).view.emb (ix2 b q)))))
        (V c main_arg4 (((cfg0.win 2).blk t).view.emb (ix3 b p q))))
    = FloatOps.addf (V c main_arg0 (preOf (at5 t b p q)))
      (FloatOps.mulf
        (FloatOps.mulf (FloatOps.subf (FloatOps.ofBits .f32 0x3F800000#32) (V c main_arg0 (preOf (at5 t b p q))))
          (FloatOps.subf (FloatOps.ofBits .f32 0x3F800000#32) (V c main_v13 (postOf (at5 t b p q)))))
        (V c main_arg4 (at5 t b p q)))
  rw [at_pre t b p q, at_post t b p q, at_2 t b p q]

/-- Point `t` writes back, to the causal trace's array, its tile of the causal rule. -/
theorem flushed_causal (c : Dev nD) (t : Fin cfg0.N) :
    (dat0 V c).flushed 6 t = ((cfg0.win 6).blk t).view.read (Elt F) (causalNew (V c main_v13) (V c main_arg4) (V c main_arg5)) := by
  show (cfg0.win 6).cut (grid0.coords t) ((dat0 V c).after 6 t) = _
  rw [after0_6]
  unfold out0_6
  rw [View.canon_unit_zero hz3]
  simp only [View.ld_unit_zero (S := S8x512) hz2, View.ld_unit_zero (S := S8x128) hz2, View.ld_unit_zero (S := S8x512x128) hz3]
  rw [stored_causal]
  funext j
  obtain ⟨b, p, q, rfl⟩ : ∃ (b : Fin 8) (p : Fin 512) (q : Fin 128), j = ix3 b p q :=
    ⟨j 0, j 1, j 2, eq_ix3 (n0 := 8) (n1 := 512) (n2 := 128) j⟩
  refine (causalTile_apply (iblk0 V c 1 t) (iblk0 V c 2 t) (iblk0 V c 3 t) b p q).trans ?_
  show FloatOps.addf (FloatOps.mulf (V c main_arg5 (((cfg0.win 3).blk t).view.emb (ix3 b p q))) (FloatOps.ofBits .f32 0x3F7D70A4#32))
      (FloatOps.mulf (FloatOps.mulf (FloatOps.ofBits .f32 0x3F800000#32) (V c main_v13 (((cfg0.win 1).blk t).view.emb (ix2 b q))))
        (V c main_arg4 (((cfg0.win 2).blk t).view.emb (ix3 b p q))))
    = FloatOps.addf (FloatOps.mulf (V c main_arg5 (((cfg0.win 6).blk t).view.emb (ix3 b p q))) (FloatOps.ofBits .f32 0x3F7D70A4#32))
      (FloatOps.mulf (FloatOps.mulf (FloatOps.ofBits .f32 0x3F800000#32) (V c main_v13 (postOf (((cfg0.win 6).blk t).view.emb (ix3 b p q)))))
        (V c main_arg4 (((cfg0.win 6).blk t).view.emb (ix3 b p q))))
  rw [at_6 t b p q, at_post t b p q, at_2 t b p q, at_3 t b p q]

/-- Point `t` writes back, to the acausal trace's array, its tile of the acausal rule. -/
theorem flushed_acausal (c : Dev nD) (t : Fin cfg0.N) :
    (dat0 V c).flushed 7 t = ((cfg0.win 7).blk t).view.read (Elt F) (acausalNew (V c main_arg0) (V c main_arg4) (V c main_arg6)) := by
  show (cfg0.win 7).cut (grid0.coords t) ((dat0 V c).after 7 t) = _
  rw [after0_7]
  unfold out0_7
  rw [View.canon_unit_zero hz3]
  simp only [View.ld_unit_zero (S := S8x512) hz2, View.ld_unit_zero (S := S8x128) hz2, View.ld_unit_zero (S := S8x512x128) hz3]
  rw [stored_acausal]
  funext j
  obtain ⟨b, p, q, rfl⟩ : ∃ (b : Fin 8) (p : Fin 512) (q : Fin 128), j = ix3 b p q :=
    ⟨j 0, j 1, j 2, eq_ix3 (n0 := 8) (n1 := 512) (n2 := 128) j⟩
  refine (acausalTile_apply (iblk0 V c 0 t) (iblk0 V c 2 t) (iblk0 V c 4 t) b p q).trans ?_
  show FloatOps.addf (FloatOps.mulf (V c main_arg6 (((cfg0.win 4).blk t).view.emb (ix3 b p q))) (FloatOps.ofBits .f32 0x3F7D70A4#32))
      (FloatOps.mulf (FloatOps.mulf (FloatOps.ofBits .f32 0x3F800000#32) (V c main_arg0 (((cfg0.win 0).blk t).view.emb (ix2 b p))))
        (FloatOps.subf (FloatOps.ofBits .f32 0x3F800000#32) (V c main_arg4 (((cfg0.win 2).blk t).view.emb (ix3 b p q)))))
    = FloatOps.addf (FloatOps.mulf (V c main_arg6 (((cfg0.win 7).blk t).view.emb (ix3 b p q))) (FloatOps.ofBits .f32 0x3F7D70A4#32))
      (FloatOps.mulf (FloatOps.mulf (FloatOps.ofBits .f32 0x3F800000#32) (V c main_arg0 (preOf (((cfg0.win 7).blk t).view.emb (ix3 b p q)))))
        (FloatOps.subf (FloatOps.ofBits .f32 0x3F800000#32) (V c main_arg4 (((cfg0.win 7).blk t).view.emb (ix3 b p q)))))
  rw [at_7 t b p q, at_pre t b p q, at_2 t b p q, at_4 t b p q]

end Values

/-! ## The sixteen tiles cover each output array -/

theorem mem_tile5 (t : Fin cfg0.N) (i : Syn.Idx) :
    i ∈ ((cfg0.win 5).blk t).view.set ↔ ∀ a : Fin 3, win0_5.index t a * S8x512x128.size a ≤ (i a).val ∧ (i a).val < win0_5.index t a * S8x512x128.size a + S8x512x128.size a := by
  show i ∈ ((View.whole main_v26_0).slice (win0_5.rect t)).set ↔ _
  rw [View.set_slice_whole, Rect.mem_set_unit]
  exact Iff.rfl

theorem mem_tile6 (t : Fin cfg0.N) (i : Syn.Idx) :
    i ∈ ((cfg0.win 6).blk t).view.set ↔ ∀ a : Fin 3, win0_6.index t a * S8x512x128.size a ≤ (i a).val ∧ (i a).val < win0_6.index t a * S8x512x128.size a + S8x512x128.size a := by
  show i ∈ ((View.whole main_v26_1).slice (win0_6.rect t)).set ↔ _
  rw [View.set_slice_whole, Rect.mem_set_unit]
  exact Iff.rfl

theorem mem_tile7 (t : Fin cfg0.N) (i : Syn.Idx) :
    i ∈ ((cfg0.win 7).blk t).view.set ↔ ∀ a : Fin 3, win0_7.index t a * S8x512x128.size a ≤ (i a).val ∧ (i a).val < win0_7.index t a * S8x512x128.size a + S8x512x128.size a := by
  show i ∈ ((View.whole main_v26_2).slice (win0_7.rect t)).set ↔ _
  rw [View.set_slice_whole, Rect.mem_set_unit]
  exact Iff.rfl

/-- The point whose tile holds `[i0, i1, i2]`: batch tile `i0 / 8`, column tile `i2 / 128`. -/
theorem tile_of (i : Syn.Idx) : ∃ t : Fin cfg0.N,
    win0_5.index t (0 : Fin 3) = (i 0).val / 8 ∧ win0_5.index t (1 : Fin 3) = 0 ∧ win0_5.index t (2 : Fin 3) = (i 2).val / 128 := by
  have hi0 : (i 0).val < 32 := (i 0).isLt
  have hi2 : (i 2).val < 512 := (i 2).isLt
  obtain ⟨t, ht⟩ := idx_onto ⟨(i 0).val / 8, by omega⟩ ⟨(i 2).val / 128, by omega⟩
  exact ⟨t, congrFun ht 0, congrFun ht 1, congrFun ht 2⟩

theorem cover5 (i : Syn.Idx) : ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 512 := (i 2).isLt
  obtain ⟨t, q0, q1, q2⟩ := tile_of i
  refine ⟨t, flush0_5 t, ?_⟩
  rw [mem_tile5]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

theorem cover6 (i : Syn.Idx) : ∃ t : Fin cfg0.N, (cfg0.win 6).flush t = true ∧ i ∈ ((cfg0.win 6).blk t).view.set := by
  have hi0 : (i 0).val < 32 := (i 0).isLt
  have hi1 : (i 1).val < 512 := (i 1).isLt
  have hi2 : (i 2).val < 512 := (i 2).isLt
  obtain ⟨t, q0, q1, q2⟩ := tile_of i
  obtain ⟨-, -, -, ⟨e0, e1, e2⟩, -⟩ := idx_syn t
  refine ⟨t, flush0_6 t, ?_⟩
  rw [mem_tile6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 512 ≤ (i 1).val ∧ (i 1).val < win0_6.index t (1 : Fin 3) * 512 + 512; omega
  | ⟨2, _⟩ => show win0_6.index t (2 : Fin 3) * 128 ≤ (i 2).val ∧ (i 2).val < win0_6.index t (2 : Fin 3) * 128 + 128; omega

theorem cover7 (i : Syn.Idx) : ∃ t : Fin cfg0.N, (cfg0.win 7).flush t = true ∧ i ∈ ((cfg0.win 7).blk t).view.set := by
  have hi0 : (i 0).val < 32 := (i 0).isLt
  have hi1 : (i 1).val < 512 := (i 1).isLt
  have hi2 : (i 2).val < 512 := (i 2).isLt
  obtain ⟨t, q0, q1, q2⟩ := tile_of i
  obtain ⟨-, -, -, -, ⟨e0, e1, e2⟩⟩ := idx_syn t
  refine ⟨t, flush0_7 t, ?_⟩
  rw [mem_tile7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 512 ≤ (i 1).val ∧ (i 1).val < win0_7.index t (1 : Fin 3) * 512 + 512; omega
  | ⟨2, _⟩ => show win0_7.index t (2 : Fin 3) * 128 ≤ (i 2).val ∧ (i 2).val < win0_7.index t (2 : Fin 3) * 128 + 128; omega

/-! ## The arrays after the run -/

section Final
variable (V : (c : Dev nD) → (b : Ref sig .tc) → Buf (Elt F) ((c : Thread nD τ).loc b))

/-- The flag's array after the sixteen write-backs is the flag rule of the arrays the region found. -/
theorem final_flag (c : Dev nD) :
    (dat0 V c).arrAt 5 cfg0.N = flagNew (V c main_arg0) (V c main_v13) (V c main_arg4) :=
  (dat0 V c).arrAt_eq_of_cover 5 _ (fun t _ => flushed_flag V c t) cover5

/-- The causal trace's array after the run. -/
theorem final_causal (c : Dev nD) :
    (dat0 V c).arrAt 6 cfg0.N = causalNew (V c main_v13) (V c main_arg4) (V c main_arg5) :=
  (dat0 V c).arrAt_eq_of_cover 6 _ (fun t _ => flushed_causal V c t) cover6

/-- The acausal trace's array after the run. -/
theorem final_acausal (c : Dev nD) :
    (dat0 V c).arrAt 7 cfg0.N = acausalNew (V c main_arg0) (V c main_arg4) (V c main_arg6) :=
  (dat0 V c).arrAt_eq_of_cover 7 _ (fun t _ => flushed_acausal V c t) cover7

end Final

end Cert.KernelIdeal.Region0

end
-- ==== Proof.Region1.lean ====
/-
  The second kernel's three output arrays, whatever its region finds in its five input arrays. The grid is 4 × 4:
  point `(bi, qi)` works on batch rows `8·bi … 8·bi+7` and postsynaptic columns `128·qi … 128·qi+127`, over all 512
  presynaptic rows. Each point stores one whole tile per output, and that tile is the tile of the whole-array rule:
  entry `[b, p, q]` of the tile sits at `[8·bi + b, p, 128·qi + q]` of the array, the presynaptic tile's `[b, p]` at
  `[8·bi + b, p]`, the postsynaptic tile's `[b, q]` at `[8·bi + b, 128·qi + q]`. The sixteen tiles cover the array, so
  after the run each output array IS the rule of the input arrays.
-/
import proofs.«128571_j75737453298145_1_alg».proof.Proof.Gen.KernelIdeal.Frame
import proofs.«128571_j75737453298145_1_alg».proof.Proof.Spec
import Idealize.ShloMosaic.Lib.ValueIdx
import Idealize.ShloMosaic.Lib.Pipeline.Value

set_option maxRecDepth 16384

noncomputable section

namespace Cert.KernelIdeal.Region1

open Cert.KernelIdeal Cert.KernelIdeal.Gen Cert.Corr
open Idealize.ShloMosaic Idealize.ShloMosaic.TcCoe Idealize.ShloMosaic.ValueIdx Idealize.SL.Sem
open Idealize.ShloMosaic.Pipeline (Dat Cfg Window)

variable {F : FTy → Type} [FloatOps F]

/-! ## The body's three stored values are the tile trees -/

theorem hz2 : (![0, 0] : Fin 2 → Nat) = fun _ => 0 := funext fun a => by fin_cases a <;> rfl
theorem hz3 : (![0, 0, 0] : Fin 3 → Nat) = fun _ => 0 := funext fun a => by fin_cases a <;> rfl

theorem stored_flag (x0 : Vec F S8x512 .f32) (x1 : Vec F S8x128 .f32) (x2 : Vec F S8x512x128 .f32) :
    k1_pay1 (k1_pay2 x0) x2 (k1_pay6 x0) (k1_pay7 x1) = flagTile x0 x1 x2 := rfl
theorem stored_causal (x1 : Vec F S8x128 .f32) (x2 x3 : Vec F S8x512x128 .f32) :
    k1_pay4 x1 x2 x3 = causalTile x1 x2 x3 := rfl
theorem stored_acausal (x0 : Vec F S8x512 .f32) (x2 x4 : Vec F S8x512x128 .f32) :
    k1_pay5 x0 x2 x4 = acausalTile x0 x2 x4 := rfl

/-! ## The index maps, decided over the sixteen points -/

/-- The presynaptic window follows the outputs' batch tile and stays at row tile 0; the postsynaptic window follows
    their batch tile and their column tile. -/
theorem idx_rows : ∀ t : Fin cfg1.N,
    win1_0.index t (0 : Fin 2) = win1_5.index t (0 : Fin 3) ∧ win1_0.index t (1 : Fin 2) = 0
    ∧ win1_1.index t (0 : Fin 2) = win1_5.index t (0 : Fin 3) ∧ win1_1.index t (1 : Fin 2) = win1_5.index t (2 : Fin 3) :=
  (by decide +kernel : ∀ t : Fin grid1.N, _)

/-- The three synapse inputs and the other two outputs move with the first output, tile for tile. -/
theorem idx_syn : ∀ t : Fin cfg1.N,
    (win1_2.index t (0 : Fin 3) = win1_5.index t (0 : Fin 3) ∧ win1_2.index t (1 : Fin 3) = win1_5.index t (1 : Fin 3) ∧ win1_2.index t (2 : Fin 3) = win1_5.index t (2 : Fin 3))
    ∧ (win1_3.index t (0 : Fin 3) = win1_5.index t (0 : Fin 3) ∧ win1_3.index t (1 : Fin 3) = win1_5.index t (1 : Fin 3) ∧ win1_3.index t (2 : Fin 3) = win1_5.index t (2 : Fin 3))
    ∧ (win1_4.index t (0 : Fin 3) = win1_5.index t (0 : Fin 3) ∧ win1_4.index t (1 : Fin 3) = win1_5.index t (1 : Fin 3) ∧ win1_4.index t (2 : Fin 3) = win1_5.index t (2 : Fin 3))
    ∧ (win1_6.index t (0 : Fin 3) = win1_5.index t (0 : Fin 3) ∧ win1_6.index t (1 : Fin 3) = win1_5.index t (1 : Fin 3) ∧ win1_6.index t (2 : Fin 3) = win1_5.index t (2 : Fin 3))
    ∧ (win1_7.index t (0 : Fin 3) = win1_5.index t (0 : Fin 3) ∧ win1_7.index t (1 : Fin 3) = win1_5.index t (1 : Fin 3) ∧ win1_7.index t (2 : Fin 3) = win1_5.index t (2 : Fin 3)) :=
  (by decide +kernel : ∀ t : Fin grid1.N, _)

/-- The first output's tile indices: row tile 0 always. -/
theorem idx_out : ∀ t : Fin cfg1.N, win1_5.index t (1 : Fin 3) = 0 :=
  (by decide +kernel : ∀ t : Fin grid1.N, _)

/-- Every one of the 4 × 4 tiles is some point's. -/
theorem idx_onto : ∀ (q0 : Fin 4) (q2 : Fin 4), ∃ t : Fin cfg1.N, win1_5.index t = ![q0.val, 0, q2.val] :=
  (by decide +kernel : ∀ (q0 : Fin 4) (q2 : Fin 4), ∃ t : Fin grid1.N, win1_5.index t = ![q0.val, 0, q2.val])

/-! ## Where a tile's entries sit in the arrays -/

/-- The array position of the first output's tile entry `[b, p, q]` at point `t`. -/
abbrev at5 (t : Fin cfg1.N) (b : Fin 8) (p : Fin 512) (q : Fin 128) : Syn.Idx :=
  ((cfg1.win 5).blk t).view.emb (ix3 b p q)

theorem at_pre (t : Fin cfg1.N) (b : Fin 8) (p : Fin 512) (q : Fin 128) :
    (((cfg1.win 0).blk t).view.emb (ix2 b p) : Row.Idx) = preOf (at5 t b p q) := by
  obtain ⟨e0, e1, -, -⟩ := idx_rows t
  have o1 := idx_out t
  funext a; apply Fin.ext
  match a with
  | ⟨0, _⟩ => show win1_0.index t (0 : Fin 2) * 8 + 1 * b.val = win1_5.index t (0 : Fin 3) * 8 + 1 * b.val; omega
  | ⟨1, _⟩ => show win1_0.index t (1 : Fin 2) * 512 + 1 * p.val = win1_5.index t (1 : Fin 3) * 512 + 1 * p.val; omega

theorem at_post (t : Fin cfg1.N) (b : Fin 8) (p : Fin 512) (q : Fin 128) :
    (((cfg1.win 1).blk t).view.emb (ix2 b q) : Row.Idx) = postOf (at5 t b p q) := by
  obtain ⟨-, -, e0, e1⟩ := idx_rows t
  funext a; apply Fin.ext
  match a with
  | ⟨0, _⟩ => show win1_1.index t (0 : Fin 2) * 8 + 1 * b.val = win1_5.index t (0 : Fin 3) * 8 + 1 * b.val; omega
  | ⟨1, _⟩ => show win1_1.index t (1 : Fin 2) * 128 + 1 * q.val = win1_5.index t (2 : Fin 3) * 128 + 1 * q.val; omega

theorem at_2 (t : Fin cfg1.N) (b : Fin 8) (p : Fin 512) (q : Fin 128) :
    (((cfg1.win 2).blk t).view.emb (ix3 b p q) : Syn.Idx) = at5 t b p q := by
  obtain ⟨⟨e0, e1, e2⟩, -⟩ := idx_syn t
  funext a; apply Fin.ext
  match a with
  | ⟨0, _⟩ => show win1_2.index t (0 : Fin 3) * 8 + 1 * b.val = win1_5.index t (0 : Fin 3) * 8 + 1 * b.val; omega
  | ⟨1, _⟩ => show win1_2.index t (1 : Fin 3) * 512 + 1 * p.val = win1_5.index t (1 : Fin 3) * 512 + 1 * p.val; omega
  | ⟨2, _⟩ => show win1_2.index t (2 : Fin 3) * 128 + 1 * q.val = win1_5.index t (2 : Fin 3) * 128 + 1 * q.val; omega

theorem at_3 (t : Fin cfg1.N) (b : Fin 8) (p : Fin 512) (q : Fin 128) :
    (((cfg1.win 3).blk t).view.emb (ix3 b p q) : Syn.Idx) = at5 t b p q := by
  obtain ⟨-, ⟨e0, e1, e2⟩, -⟩ := idx_syn t
  funext a; apply Fin.ext
  match a with
  | ⟨0, _⟩ => show win1_3.index t (0 : Fin 3) * 8 + 1 * b.val = win1_5.index t (0 : Fin 3) * 8 + 1 * b.val; omega
  | ⟨1, _⟩ => show win1_3.index t (1 : Fin 3) * 512 + 1 * p.val = win1_5.index t (1 : Fin 3) * 512 + 1 * p.val; omega
  | ⟨2, _⟩ => show win1_3.index t (2 : Fin 3) * 128 + 1 * q.val = win1_5.index t (2 : Fin 3) * 128 + 1 * q.val; omega

theorem at_4 (t : Fin cfg1.N) (b : Fin 8) (p : Fin 512) (q : Fin 128) :
    (((cfg1.win 4).blk t).view.emb (ix3 b p q) : Syn.Idx) = at5 t b p q := by
  obtain ⟨-, -, ⟨e0, e1, e2⟩, -⟩ := idx_syn t
  funext a; apply Fin.ext
  match a with
  | ⟨0, _⟩ => show win1_4.index t (0 : Fin 3) * 8 + 1 * b.val = win1_5.index t (0 : Fin 3) * 8 + 1 * b.val; omega
  | ⟨1, _⟩ => show win1_4.index t (1 : Fin 3) * 512 + 1 * p.val = win1_5.index t (1 : Fin 3) * 512 + 1 * p.val; omega
  | ⟨2, _⟩ => show win1_4.index t (2 : Fin 3) * 128 + 1 * q.val = win1_5.index t (2 : Fin 3) * 128 + 1 * q.val; omega

theorem at_6 (t : Fin cfg1.N) (b : Fin 8) (p : Fin 512) (q : Fin 128) :
    (((cfg1.win 6).blk t).view.emb (ix3 b p q) : Syn.Idx) = at5 t b p q := by
  obtain ⟨-, -, -, ⟨e0, e1, e2⟩, -⟩ := idx_syn t
  funext a; apply Fin.ext
  match a with
  | ⟨0, _⟩ => show win1_6.index t (0 : Fin 3) * 8 + 1 * b.val = win1_5.index t (0 : Fin 3) * 8 + 1 * b.val; omega
  | ⟨1, _⟩ => show win1_6.index t (1 : Fin 3) * 512 + 1 * p.val = win1_5.index t (1 : Fin 3) * 512 + 1 * p.val; omega
  | ⟨2, _⟩ => show win1_6.index t (2 : Fin 3) * 128 + 1 * q.val = win1_5.index t (2 : Fin 3) * 128 + 1 * q.val; omega

theorem at_7 (t : Fin cfg1.N) (b : Fin 8) (p : Fin 512) (q : Fin 128) :
    (((cfg1.win 7).blk t).view.emb (ix3 b p q) : Syn.Idx) = at5 t b p q := by
  obtain ⟨-, -, -, -, ⟨e0, e1, e2⟩⟩ := idx_syn t
  funext a; apply Fin.ext
  match a with
  | ⟨0, _⟩ => show win1_7.index t (0 : Fin 3) * 8 + 1 * b.val = win1_5.index t (0 : Fin 3) * 8 + 1 * b.val; omega
  | ⟨1, _⟩ => show win1_7.index t (1 : Fin 3) * 512 + 1 * p.val = win1_5.index t (1 : Fin 3) * 512 + 1 * p.val; omega
  | ⟨2, _⟩ => show win1_7.index t (2 : Fin 3) * 128 + 1 * q.val = win1_5.index t (2 : Fin 3) * 128 + 1 * q.val; omega

/-! ## What a point writes back -/

section Values
variable (V : (c : Dev nD) → (b : Ref sig .tc) → Buf (Elt F) ((c : Thread nD τ).loc b))

/-- Point `t` writes back, to the flag's array, its tile of the flag rule of the arrays as the region finds them. -/
theorem flushed_flag (c : Dev nD) (t : Fin cfg1.N) :
    (dat1 V c).flushed 5 t = ((cfg1.win 5).blk t).view.read (Elt F) (flagNew (V c main_arg1) (V c main_v13) (V c main_arg7)) := by
  show (cfg1.win 5).cut (grid1.coords t) ((dat1 V c).after 5 t) = _
  rw [after1_5]
  unfold out1_5
  rw [View.canon_unit_zero hz3]
  simp only [View.ld_unit_zero (S := S8x512) hz2, View.ld_unit_zero (S := S8x128) hz2, View.ld_unit_zero (S := S8x512x128) hz3]
  rw [stored_flag]
  funext j
  obtain ⟨b, p, q, rfl⟩ : ∃ (b : Fin 8) (p : Fin 512) (q : Fin 128), j = ix3 b p q :=
    ⟨j 0, j 1, j 2, eq_ix3 (n0 := 8) (n1 := 512) (n2 := 128) j⟩
  refine (flagTile_apply (iblk1 V c 0 t) (iblk1 V c 1 t) (iblk1 V c 2 t) b p q).trans ?_
  show FloatOps.addf (V c main_arg1 (((cfg1.win 0).blk t).view.emb (ix2 b p)))
      (FloatOps.mulf
        (FloatOps.mulf (FloatOps.subf (FloatOps.ofBits .f32 0x3F800000#32) (V c main_arg1 (((cfg1.win 0).blk t).view.emb (ix2 b p))))
          (FloatOps.subf (FloatOps.ofBits .f32 0x3F800000#32) (V c main_v13 (((cfg1.win 1).blk t).view.emb (ix2 b q)))))
        (V c main_arg7 (((cfg1.win 2).blk t).view.emb (ix3 b p q))))
    = FloatOps.addf (V c main_arg1 (preOf (at5 t b p q)))
      (FloatOps.mulf
        (FloatOps.mulf (FloatOps.subf (FloatOps.ofBits .f32 0x3F800000#32) (V c main_arg1 (preOf (at5 t b p q))))
          (FloatOps.subf (FloatOps.ofBits .f32 0x3F800000#32) (V c main_v13 (postOf (at5 t b p q)))))
        (V c main_arg7 (at5 t b p q)))
  rw [at_pre t b p q, at_post t b p q, at_2 t b p q]

/-- Point `t` writes back, to the causal trace's array, its tile of the causal rule. -/
theorem flushed_causal (c : Dev nD) (t : Fin cfg1.N) :
    (dat1 V c).flushed 6 t = ((cfg1.win 6).blk t).view.read (Elt F) (causalNew (V c main_v13) (V c main_arg7) (V c main_arg8)) := by
  show (cfg1.win 6).cut (grid1.coords t) ((dat1 V c).after 6 t) = _
  rw [after1_6]
  unfold out1_6
  rw [View.canon_unit_zero hz3]
  simp only [View.ld_unit_zero (S := S8x512) hz2, View.ld_unit_zero (S := S8x128) hz2, View.ld_unit_zero (S := S8x512x128) hz3]
  rw [stored_causal]
  funext j
  obtain ⟨b, p, q, rfl⟩ : ∃ (b : Fin 8) (p : Fin 512) (q : Fin 128), j = ix3 b p q :=
    ⟨j 0, j 1, j 2, eq_ix3 (n0 := 8) (n1 := 512) (n2 := 128) j⟩
  refine (causalTile_apply (iblk1 V c 1 t) (iblk1 V c 2 t) (iblk1 V c 3 t) b p q).trans ?_
  show FloatOps.addf (FloatOps.mulf (V c main_arg8 (((cfg1.win 3).blk t).view.emb (ix3 b p q))) (FloatOps.ofBits .f32 0x3F7D70A4#32))
      (FloatOps.mulf (FloatOps.mulf (FloatOps.ofBits .f32 0x3F800000#32) (V c main_v13 (((cfg1.win 1).blk t).view.emb (ix2 b q))))
        (V c main_arg7 (((cfg1.win 2).blk t).view.emb (ix3 b p q))))
    = FloatOps.addf (FloatOps.mulf (V c main_arg8 (((cfg1.win 6).blk t).view.emb (ix3 b p q))) (FloatOps.ofBits .f32 0x3F7D70A4#32))
      (FloatOps.mulf (FloatOps.mulf (FloatOps.ofBits .f32 0x3F800000#32) (V c main_v13 (postOf (((cfg1.win 6).blk t).view.emb (ix3 b p q)))))
        (V c main_arg7 (((cfg1.win 6).blk t).view.emb (ix3 b p q))))
  rw [at_6 t b p q, at_post t b p q, at_2 t b p q, at_3 t b p q]

/-- Point `t` writes back, to the acausal trace's array, its tile of the acausal rule. -/
theorem flushed_acausal (c : Dev nD) (t : Fin cfg1.N) :
    (dat1 V c).flushed 7 t = ((cfg1.win 7).blk t).view.read (Elt F) (acausalNew (V c main_arg1) (V c main_arg7) (V c main_arg9)) := by
  show (cfg1.win 7).cut (grid1.coords t) ((dat1 V c).after 7 t) = _
  rw [after1_7]
  unfold out1_7
  rw [View.canon_unit_zero hz3]
  simp only [View.ld_unit_zero (S := S8x512) hz2, View.ld_unit_zero (S := S8x128) hz2, View.ld_unit_zero (S := S8x512x128) hz3]
  rw [stored_acausal]
  funext j
  obtain ⟨b, p, q, rfl⟩ : ∃ (b : Fin 8) (p : Fin 512) (q : Fin 128), j = ix3 b p q :=
    ⟨j 0, j 1, j 2, eq_ix3 (n0 := 8) (n1 := 512) (n2 := 128) j⟩
  refine (acausalTile_apply (iblk1 V c 0 t) (iblk1 V c 2 t) (iblk1 V c 4 t) b p q).trans ?_
  show FloatOps.addf (FloatOps.mulf (V c main_arg9 (((cfg1.win 4).blk t).view.emb (ix3 b p q))) (FloatOps.ofBits .f32 0x3F7D70A4#32))
      (FloatOps.mulf (FloatOps.mulf (FloatOps.ofBits .f32 0x3F800000#32) (V c main_arg1 (((cfg1.win 0).blk t).view.emb (ix2 b p))))
        (FloatOps.subf (FloatOps.ofBits .f32 0x3F800000#32) (V c main_arg7 (((cfg1.win 2).blk t).view.emb (ix3 b p q)))))
    = FloatOps.addf (FloatOps.mulf (V c main_arg9 (((cfg1.win 7).blk t).view.emb (ix3 b p q))) (FloatOps.ofBits .f32 0x3F7D70A4#32))
      (FloatOps.mulf (FloatOps.mulf (FloatOps.ofBits .f32 0x3F800000#32) (V c main_arg1 (preOf (((cfg1.win 7).blk t).view.emb (ix3 b p q)))))
        (FloatOps.subf (FloatOps.ofBits .f32 0x3F800000#32) (V c main_arg7 (((cfg1.win 7).blk t).view.emb (ix3 b p q)))))
  rw [at_7 t b p q, at_pre t b p q, at_2 t b p q, at_4 t b p q]

end Values

/-! ## The sixteen tiles cover each output array -/

theorem mem_tile5 (t : Fin cfg1.N) (i : Syn.Idx) :
    i ∈ ((cfg1.win 5).blk t).view.set ↔ ∀ a : Fin 3, win1_5.index t a * S8x512x128.size a ≤ (i a).val ∧ (i a).val < win1_5.index t a * S8x512x128.size a + S8x512x128.size a := by
  show i ∈ ((View.whole main_v27_0).slice (win1_5.rect t)).set ↔ _
  rw [View.set_slice_whole, Rect.mem_set_unit]
  exact Iff.rfl

theorem mem_tile6 (t : Fin cfg1.N) (i : Syn.Idx) :
    i ∈ ((cfg1.win 6).blk t).view.set ↔ ∀ a : Fin 3, win1_6.index t a * S8x512x128.size a ≤ (i a).val ∧ (i a).val < win1_6.index t a * S8x512x128.size a + S8x512x128.size a := by
  show i ∈ ((View.whole main_v27_1).slice (win1_6.rect t)).set ↔ _
  rw [View.set_slice_whole, Rect.mem_set_unit]
  exact Iff.rfl

theorem mem_tile7 (t : Fin cfg1.N) (i : Syn.Idx) :
    i ∈ ((cfg1.win 7).blk t).view.set ↔ ∀ a : Fin 3, win1_7.index t a * S8x512x128.size a ≤ (i a).val ∧ (i a).val < win1_7.index t a * S8x512x128.size a + S8x512x128.size a := by
  show i ∈ ((View.whole main_v27_2).slice (win1_7.rect t)).set ↔ _
  rw [View.set_slice_whole, Rect.mem_set_unit]
  exact Iff.rfl

/-- The point whose tile holds `[i0, i1, i2]`: batch tile `i0 / 8`, column tile `i2 / 128`. -/
theorem tile_of (i : Syn.Idx) : ∃ t : Fin cfg1.N,
    win1_5.index t (0 : Fin 3) = (i 0).val / 8 ∧ win1_5.index t (1 : Fin 3) = 0 ∧ win1_5.index t (2 : Fin 3) = (i 2).val / 128 := by
  have hi0 : (i 0).val < 32 := (i 0).isLt
  have hi2 : (i 2).val < 512 := (i 2).isLt
  obtain ⟨t, ht⟩ := idx_onto ⟨(i 0).val / 8, by omega⟩ ⟨(i 2).val / 128, by omega⟩
  exact ⟨t, congrFun ht 0, congrFun ht 1, congrFun ht 2⟩

theorem cover5 (i : Syn.Idx) : ∃ t : Fin cfg1.N, (cfg1.win 5).flush t = true ∧ i ∈ ((cfg1.win 5).blk t).view.set := by
  have hi0 : (i 0).val < 32 := (i 0).isLt
  have hi1 : (i 1).val < 512 := (i 1).isLt
  have hi2 : (i 2).val < 512 := (i 2).isLt
  obtain ⟨t, q0, q1, q2⟩ := tile_of i
  refine ⟨t, flush1_5 t, ?_⟩
  rw [mem_tile5]
  intro a
  match a with
  | ⟨0, _⟩ => show win1_5.index t (0 : Fin 3) * 8 ≤ (i 0).val ∧ (i 0).val < win1_5.index t (0 : Fin 3) * 8 + 8; omega
  | ⟨1, _⟩ => show win1_5.index t (1 : Fin 3) * 512 ≤ (i 1).val ∧ (i 1).val < win1_5.index t (1 : Fin 3) * 512 + 512; omega
  | ⟨2, _⟩ => show win1_5.index t (2 : Fin 3) * 128 ≤ (i 2).val ∧ (i 2).val < win1_5.index t (2 : Fin 3) * 128 + 128; omega

theorem cover6 (i : Syn.Idx) : ∃ t : Fin cfg1.N, (cfg1.win 6).flush t = true ∧ i ∈ ((cfg1.win 6).blk t).view.set := by
  have hi0 : (i 0).val < 32 := (i 0).isLt
  have hi1 : (i 1).val < 512 := (i 1).isLt
  have hi2 : (i 2).val < 512 := (i 2).isLt
  obtain ⟨t, q0, q1, q2⟩ := tile_of i
  obtain ⟨-, -, -, ⟨e0, e1, e2⟩, -⟩ := idx_syn t
  refine ⟨t, flush1_6 t, ?_⟩
  rw [mem_tile6]
  intro a
  match a with
  | ⟨0, _⟩ => show win1_6.index t (0 : Fin 3) * 8 ≤ (i 0).val ∧ (i 0).val < win1_6.index t (0 : Fin 3) * 8 + 8; omega
  | ⟨1, _⟩ => show win1_6.index t (1 : Fin 3) * 512 ≤ (i 1).val ∧ (i 1).val < win1_6.index t (1 : Fin 3) * 512 + 512; omega
  | ⟨2, _⟩ => show win1_6.index t (2 : Fin 3) * 128 ≤ (i 2).val ∧ (i 2).val < win1_6.index t (2 : Fin 3) * 128 + 128; omega

theorem cover7 (i : Syn.Idx) : ∃ t : Fin cfg1.N, (cfg1.win 7).flush t = true ∧ i ∈ ((cfg1.win 7).blk t).view.set := by
  have hi0 : (i 0).val < 32 := (i 0).isLt
  have hi1 : (i 1).val < 512 := (i 1).isLt
  have hi2 : (i 2).val < 512 := (i 2).isLt
  obtain ⟨t, q0, q1, q2⟩ := tile_of i
  obtain ⟨-, -, -, -, ⟨e0, e1, e2⟩⟩ := idx_syn t
  refine ⟨t, flush1_7 t, ?_⟩
  rw [mem_tile7]
  intro a
  match a with
  | ⟨0, _⟩ => show win1_7.index t (0 : Fin 3) * 8 ≤ (i 0).val ∧ (i 0).val < win1_7.index t (0 : Fin 3) * 8 + 8; omega
  | ⟨1, _⟩ => show win1_7.index t (1 : Fin 3) * 512 ≤ (i 1).val ∧ (i 1).val < win1_7.index t (1 : Fin 3) * 512 + 512; omega
  | ⟨2, _⟩ => show win1_7.index t (2 : Fin 3) * 128 ≤ (i 2).val ∧ (i 2).val < win1_7.index t (2 : Fin 3) * 128 + 128; omega

/-! ## The arrays after the run -/

section Final
variable (V : (c : Dev nD) → (b : Ref sig .tc) → Buf (Elt F) ((c : Thread nD τ).loc b))

/-- The flag's array after the sixteen write-backs is the flag rule of the arrays the region found. -/
theorem final_flag (c : Dev nD) :
    (dat1 V c).arrAt 5 cfg1.N = flagNew (V c main_arg1) (V c main_v13) (V c main_arg7) :=
  (dat1 V c).arrAt_eq_of_cover 5 _ (fun t _ => flushed_flag V c t) cover5

/-- The causal trace's array after the run. -/
theorem final_causal (c : Dev nD) :
    (dat1 V c).arrAt 6 cfg1.N = causalNew (V c main_v13) (V c main_arg7) (V c main_arg8) :=
  (dat1 V c).arrAt_eq_of_cover 6 _ (fun t _ => flushed_causal V c t) cover6

/-- The acausal trace's array after the run. -/
theorem final_acausal (c : Dev nD) :
    (dat1 V c).arrAt 7 cfg1.N = acausalNew (V c main_arg1) (V c main_arg7) (V c main_arg9) :=
  (dat1 V c).arrAt_eq_of_cover 7 _ (fun t _ => flushed_acausal V c t) cover7

end Final

end Cert.KernelIdeal.Region1

end
-- ==== Proof.Results.lean ====
/-
  What the kernel's program leaves in its nine results, as functions of the twelve arguments. @main is a stretch of
  host operations (the membrane step: the spike vector `z`, the membrane potential `v`, the synaptic current `i`) and
  then the two correlation kernels, each of which reads the spike vector the host stretch has just computed. The
  buffer contents are followed through the three segments: a host result is what the stretch's operations make of the
  arguments and neither kernel touches it (it is an input array of both at most); the first kernel's outputs are the
  three rules of its input arrays, untouched by the second; the second kernel's outputs are the rules of ITS input
  arrays, which the first kernel left as it found them.
-/
import proofs.«128571_j75737453298145_1_alg».proof.Proof.Gen.KernelIdeal.Frame
import proofs.«128571_j75737453298145_1_alg».proof.Proof.KernelRun
import proofs.«128571_j75737453298145_1_alg».proof.Proof.Region0
import proofs.«128571_j75737453298145_1_alg».proof.Proof.Region1
import proofs.«128571_j75737453298145_1_alg».proof.Proof.Spec
import Idealize.ShloMosaic.Lib.StableHlo.Run

set_option maxRecDepth 16384

noncomputable section

namespace Cert.KernelIdeal.Results

open Cert.KernelIdeal Cert.KernelIdeal.Gen Cert.Corr
open Idealize.ShloMosaic Idealize.ShloMosaic.TcCoe Idealize.ShloMosaic.StableHlo Idealize.SL.Sem
open Idealize.ShloMosaic.Pipeline (Dat Cfg Window)

variable {F : FTy → Type} [FloatOps F]

/-! ## The membrane step, as the host stretch computes it -/

/-- The decayed membrane potential `v + 0.1 · ((0 - v) + i)`. -/
def decayed (x2 x3 : Vec F S32x512 .f32) : FVec F S32x512 .f32 :=
  addf (x2) (mulf (broadcastInDim S32x512 ![] bcast_S_S32x512 (constant S_ .f32 0x3DCCCCCD#32)) (addf (subf (broadcastInDim S32x512 ![] bcast_S_S32x512 (constant S_ .f32 0x00000000#32)) (x2)) (x3)))

/-- The spike vector: 1 where the decayed potential exceeds the threshold 1, else 0. -/
def spikes (x2 x3 : Vec F S32x512 .f32) : FVec F S32x512 .f32 :=
  uitofp .f32 (cmpf .ogt (subf (decayed x2 x3) (broadcastInDim S32x512 ![] bcast_S_S32x512 (constant S_ .f32 0x3F800000#32))) (broadcastInDim S32x512 ![] bcast_S_S32x512 (constant S_ .f32 0x00000000#32)))

/-- The new membrane potential `(1 - z) · decayed + z · 0`. -/
def membrane (x2 x3 : Vec F S32x512 .f32) : FVec F S32x512 .f32 :=
  addf (mulf (subf (broadcastInDim S32x512 ![] bcast_S_S32x512 (constant S_ .f32 0x3F800000#32)) (spikes x2 x3)) (decayed x2 x3)) (mulf (spikes x2 x3) (broadcastInDim S32x512 ![] bcast_S_S32x512 (constant S_ .f32 0x00000000#32)))

/-- The new synaptic current `(i + (-0.2) · i) + input · Wᵢₙᵀ + z_old · W_recᵀ`. -/
def current (x0 x1 x3 : Vec F S32x512 .f32) (x10 x11 : Vec F S512x512 .f32) : FVec F S32x512 .f32 :=
  addf (addf (addf (x3) (mulf (broadcastInDim S32x512 ![] bcast_S_S32x512 (constant S_ .f32 0xBE4CCCCD#32)) (x3))) (Host.dotGeneral dot_S32x512_S512x512_S32x512_1_0_0_1_n_n none (x0) (transpose S512x512 [1, 0] (x10) transposes_S512x512_S512x512_1_0))) (Host.dotGeneral dot_S32x512_S512x512_S32x512_1_0_0_1_n_n none (x1) (transpose S512x512 [1, 0] (x11) transposes_S512x512_S512x512_1_0))

variable (m : (ℓ : Loc nD τ sig) → Buf (Elt F) ℓ) (ρ : Dev nD → PrngReg)

/-! ## After the host stretch -/

section AfterHost

/-- The host stretch writes no argument. -/
theorem entry_arg0 (c : Dev nD) : W1 m ρ c (Proc.devRef .tc main_arg0) = m ((c : Thread nD τ).loc main_arg0) := by
  show StableHlo.after hostOps0 (W0 m ρ c) (Proc.devRef .tc main_arg0) = _
  after_results_simp
theorem entry_arg1 (c : Dev nD) : W1 m ρ c (Proc.devRef .tc main_arg1) = m ((c : Thread nD τ).loc main_arg1) := by
  show StableHlo.after hostOps0 (W0 m ρ c) (Proc.devRef .tc main_arg1) = _
  after_results_simp
theorem entry_arg4 (c : Dev nD) : W1 m ρ c (Proc.devRef .tc main_arg4) = m ((c : Thread nD τ).loc main_arg4) := by
  show StableHlo.after hostOps0 (W0 m ρ c) (Proc.devRef .tc main_arg4) = _
  after_results_simp
theorem entry_arg5 (c : Dev nD) : W1 m ρ c (Proc.devRef .tc main_arg5) = m ((c : Thread nD τ).loc main_arg5) := by
  show StableHlo.after hostOps0 (W0 m ρ c) (Proc.devRef .tc main_arg5) = _
  after_results_simp
theorem entry_arg6 (c : Dev nD) : W1 m ρ c (Proc.devRef .tc main_arg6) = m ((c : Thread nD τ).loc main_arg6) := by
  show StableHlo.after hostOps0 (W0 m ρ c) (Proc.devRef .tc main_arg6) = _
  after_results_simp
theorem entry_arg7 (c : Dev nD) : W1 m ρ c (Proc.devRef .tc main_arg7) = m ((c : Thread nD τ).loc main_arg7) := by
  show StableHlo.after hostOps0 (W0 m ρ c) (Proc.devRef .tc main_arg7) = _
  after_results_simp
theorem entry_arg8 (c : Dev nD) : W1 m ρ c (Proc.devRef .tc main_arg8) = m ((c : Thread nD τ).loc main_arg8) := by
  show StableHlo.after hostOps0 (W0 m ρ c) (Proc.devRef .tc main_arg8) = _
  after_results_simp
theorem entry_arg9 (c : Dev nD) : W1 m ρ c (Proc.devRef .tc main_arg9) = m ((c : Thread nD τ).loc main_arg9) := by
  show StableHlo.after hostOps0 (W0 m ρ c) (Proc.devRef .tc main_arg9) = _
  after_results_simp

/-- The spike vector after the host stretch. -/
theorem entry_spikes (c : Dev nD) :
    W1 m ρ c (Proc.devRef .tc main_v13) = spikes (m ((c : Thread nD τ).loc main_arg2)) (m ((c : Thread nD τ).loc main_arg3)) := by
  show StableHlo.after hostOps0 (W0 m ρ c) (Proc.devRef .tc main_v13) = _
  after_results_simp
  rfl

/-- The membrane potential after the host stretch. -/
theorem entry_membrane (c : Dev nD) :
    W1 m ρ c (Proc.devRef .tc main_v19) = membrane (m ((c : Thread nD τ).loc main_arg2)) (m ((c : Thread nD τ).loc main_arg3)) := by
  show StableHlo.after hostOps0 (W0 m ρ c) (Proc.devRef .tc main_v19) = _
  after_results_simp
  rfl

/-- The synaptic current after the host stretch. -/
theorem entry_current (c : Dev nD) :
    W1 m ρ c (Proc.devRef .tc main_v25) = current (m ((c : Thread nD τ).loc main_arg0)) (m ((c : Thread nD τ).loc main_arg1)) (m ((c : Thread nD τ).loc main_arg3)) (m ((c : Thread nD τ).loc main_arg10)) (m ((c : Thread nD τ).loc main_arg11)) := by
  show StableHlo.after hostOps0 (W0 m ρ c) (Proc.devRef .tc main_v25) = _
  after_results_simp
  rfl

end AfterHost

/-! ## Through the first kernel -/

/-- The spike vector is an input array of the first kernel: it leaves it as found. -/
theorem mid_spikes (c : Dev nD) : W2 m ρ c (Proc.devRef .tc main_v13) = W1 m ρ c (Proc.devRef .tc main_v13) :=
  (W2_arr m ρ c 1).trans (((dat0 (V1 m ρ) c).arrAt_in 1 rfl _).trans (A_eq0 (V1 m ρ) c 1))

/-! ## The nine results after the run -/

theorem end_spikes (c : Dev nD) :
    W3 m ρ c (Proc.devRef .tc main_v13) = spikes (m ((c : Thread nD τ).loc main_arg2)) (m ((c : Thread nD τ).loc main_arg3)) :=
  ((W3_arr m ρ c 1).trans (((dat1 (V2 m ρ) c).arrAt_in 1 rfl _).trans (A_eq1 (V2 m ρ) c 1))).trans
    ((mid_spikes m ρ c).trans (entry_spikes m ρ c))

theorem end_membrane (c : Dev nD) :
    W3 m ρ c (Proc.devRef .tc main_v19) = membrane (m ((c : Thread nD τ).loc main_arg2)) (m ((c : Thread nD τ).loc main_arg3)) :=
  (W3_of_ne m ρ c main_v19 (by decide)).trans ((W2_of_ne m ρ c main_v19 (by decide)).trans (entry_membrane m ρ c))

theorem end_current (c : Dev nD) :
    W3 m ρ c (Proc.devRef .tc main_v25) = current (m ((c : Thread nD τ).loc main_arg0)) (m ((c : Thread nD τ).loc main_arg1)) (m ((c : Thread nD τ).loc main_arg3)) (m ((c : Thread nD τ).loc main_arg10)) (m ((c : Thread nD τ).loc main_arg11)) :=
  (W3_of_ne m ρ c main_v25 (by decide)).trans ((W2_of_ne m ρ c main_v25 (by decide)).trans (entry_current m ρ c))

/-- The input-side flag: the first kernel's first output, the flag rule of the input spikes, the new spike vector and
    the old flag. -/
theorem end_flag_ic (c : Dev nD) :
    W3 m ρ c (Proc.devRef .tc main_v26_0)
      = flagNew (m ((c : Thread nD τ).loc main_arg0)) (spikes (m ((c : Thread nD τ).loc main_arg2)) (m ((c : Thread nD τ).loc main_arg3))) (m ((c : Thread nD τ).loc main_arg4)) := by
  refine (W3_of_ne m ρ c main_v26_0 (by decide)).trans ((W2_arr m ρ c 5).trans ?_)
  rw [Region0.final_flag (V1 m ρ) c]
  show flagNew (W1 m ρ c (Proc.devRef .tc main_arg0)) (W1 m ρ c (Proc.devRef .tc main_v13)) (W1 m ρ c (Proc.devRef .tc main_arg4)) = _
  rw [entry_arg0, entry_spikes, entry_arg4]

theorem end_causal_ic (c : Dev nD) :
    W3 m ρ c (Proc.devRef .tc main_v26_1)
      = causalNew (spikes (m ((c : Thread nD τ).loc main_arg2)) (m ((c : Thread nD τ).loc main_arg3))) (m ((c : Thread nD τ).loc main_arg4)) (m ((c : Thread nD τ).loc main_arg5)) := by
  refine (W3_of_ne m ρ c main_v26_1 (by decide)).trans ((W2_arr m ρ c 6).trans ?_)
  rw [Region0.final_causal (V1 m ρ) c]
  show causalNew (W1 m ρ c (Proc.devRef .tc main_v13)) (W1 m ρ c (Proc.devRef .tc main_arg4)) (W1 m ρ c (Proc.devRef .tc main_arg5)) = _
  rw [entry_spikes, entry_arg4, entry_arg5]

theorem end_acausal_ic (c : Dev nD) :
    W3 m ρ c (Proc.devRef .tc main_v26_2)
      = acausalNew (m ((c : Thread nD τ).loc main_arg0)) (m ((c : Thread nD τ).loc main_arg4)) (m ((c : Thread nD τ).loc main_arg6)) := by
  refine (W3_of_ne m ρ c main_v26_2 (by decide)).trans ((W2_arr m ρ c 7).trans ?_)
  rw [Region0.final_acausal (V1 m ρ) c]
  show acausalNew (W1 m ρ c (Proc.devRef .tc main_arg0)) (W1 m ρ c (Proc.devRef .tc main_arg4)) (W1 m ρ c (Proc.devRef .tc main_arg6)) = _
  rw [entry_arg0, entry_arg4, entry_arg6]

/-- The first kernel reads and writes none of the second kernel's own four arguments. -/
theorem mid_arg1 (c : Dev nD) : W2 m ρ c (Proc.devRef .tc main_arg1) = m ((c : Thread nD τ).loc main_arg1) :=
  (W2_of_ne m ρ c main_arg1 (by decide)).trans (entry_arg1 m ρ c)
theorem mid_arg7 (c : Dev nD) : W2 m ρ c (Proc.devRef .tc main_arg7) = m ((c : Thread nD τ).loc main_arg7) :=
  (W2_of_ne m ρ c main_arg7 (by decide)).trans (entry_arg7 m ρ c)
theorem mid_arg8 (c : Dev nD) : W2 m ρ c (Proc.devRef .tc main_arg8) = m ((c : Thread nD τ).loc main_arg8) :=
  (W2_of_ne m ρ c main_arg8 (by decide)).trans (entry_arg8 m ρ c)
theorem mid_arg9 (c : Dev nD) : W2 m ρ c (Proc.devRef .tc main_arg9) = m ((c : Thread nD τ).loc main_arg9) :=
  (W2_of_ne m ρ c main_arg9 (by decide)).trans (entry_arg9 m ρ c)

/-- The recurrent-side flag: the second kernel's first output. -/
theorem end_flag_rc (c : Dev nD) :
    W3 m ρ c (Proc.devRef .tc main_v27_0)
      = flagNew (m ((c : Thread nD τ).loc main_arg1)) (spikes (m ((c : Thread nD τ).loc main_arg2)) (m ((c : Thread nD τ).loc main_arg3))) (m ((c : Thread nD τ).loc main_arg7)) := by
  refine (W3_arr m ρ c 5).trans ?_
  rw [Region1.final_flag (V2 m ρ) c]
  show flagNew (W2 m ρ c (Proc.devRef .tc main_arg1)) (W2 m ρ c (Proc.devRef .tc main_v13)) (W2 m ρ c (Proc.devRef .tc main_arg7)) = _
  rw [mid_arg1, mid_spikes, entry_spikes, mid_arg7]

theorem end_causal_rc (c : Dev nD) :
    W3 m ρ c (Proc.devRef .tc main_v27_1)
      = causalNew (spikes (m ((c : Thread nD τ).loc main_arg2)) (m ((c : Thread nD τ).loc main_arg3))) (m ((c : Thread nD τ).loc main_arg7)) (m ((c : Thread nD τ).loc main_arg8)) := by
  refine (W3_arr m ρ c 6).trans ?_
  rw [Region1.final_causal (V2 m ρ) c]
  show causalNew (W2 m ρ c (Proc.devRef .tc main_v13)) (W2 m ρ c (Proc.devRef .tc main_arg7)) (W2 m ρ c (Proc.devRef .tc main_arg8)) = _
  rw [mid_spikes, entry_spikes, mid_arg7, mid_arg8]

theorem end_acausal_rc (c : Dev nD) :
    W3 m ρ c (Proc.devRef .tc main_v27_2)
      = acausalNew (m ((c : Thread nD τ).loc main_arg1)) (m ((c : Thread nD τ).loc main_arg7)) (m ((c : Thread nD τ).loc main_arg9)) := by
  refine (W3_arr m ρ c 7).trans ?_
  rw [Region1.final_acausal (V2 m ρ) c]
  show acausalNew (W2 m ρ c (Proc.devRef .tc main_arg1)) (W2 m ρ c (Proc.devRef .tc main_arg7)) (W2 m ρ c (Proc.devRef .tc main_arg9)) = _
  rw [mid_arg1, mid_arg7, mid_arg9]

/-! ## The kernel program's run, with its nine results named -/

/-- Every weakly fair execution of the kernel's @main terminates, nothing faulting, with the spike vector, the membrane
    potential and the current at the membrane step's values, each kernel's three outputs at the three rules of its
    spike rows and old states, and the twelve arguments as launched. -/
theorem run : θ_run defs (onTc (τ := τ) (main (F := F))) ⟨m, fun _ => 0, ρ⟩ (fun r => ∀ c : Dev nD,
      r.2.mem ((c : Thread nD τ).loc main_v13) = spikes (m ((c : Thread nD τ).loc main_arg2)) (m ((c : Thread nD τ).loc main_arg3))
      ∧ r.2.mem ((c : Thread nD τ).loc main_v19) = membrane (m ((c : Thread nD τ).loc main_arg2)) (m ((c : Thread nD τ).loc main_arg3))
      ∧ r.2.mem ((c : Thread nD τ).loc main_v25) = current (m ((c : Thread nD τ).loc main_arg0)) (m ((c : Thread nD τ).loc main_arg1)) (m ((c : Thread nD τ).loc main_arg3)) (m ((c : Thread nD τ).loc main_arg10)) (m ((c : Thread nD τ).loc main_arg11))
      ∧ r.2.mem ((c : Thread nD τ).loc main_v26_0) = flagNew (m ((c : Thread nD τ).loc main_arg0)) (spikes (m ((c : Thread nD τ).loc main_arg2)) (m ((c : Thread nD τ).loc main_arg3))) (m ((c : Thread nD τ).loc main_arg4))
      ∧ r.2.mem ((c : Thread nD τ).loc main_v26_1) = causalNew (spikes (m ((c : Thread nD τ).loc main_arg2)) (m ((c : Thread nD τ).loc main_arg3))) (m ((c : Thread nD τ).loc main_arg4)) (m ((c : Thread nD τ).loc main_arg5))
      ∧ r.2.mem ((c : Thread nD τ).loc main_v26_2) = acausalNew (m ((c : Thread nD τ).loc main_arg0)) (m ((c : Thread nD τ).loc main_arg4)) (m ((c : Thread nD τ).loc main_arg6))
      ∧ r.2.mem ((c : Thread nD τ).loc main_v27_0) = flagNew (m ((c : Thread nD τ).loc main_arg1)) (spikes (m ((c : Thread nD τ).loc main_arg2)) (m ((c : Thread nD τ).loc main_arg3))) (m ((c : Thread nD τ).loc main_arg7))
      ∧ r.2.mem ((c : Thread nD τ).loc main_v27_1) = causalNew (spikes (m ((c : Thread nD τ).loc main_arg2)) (m ((c : Thread nD τ).loc main_arg3))) (m ((c : Thread nD τ).loc main_arg7)) (m ((c : Thread nD τ).loc main_arg8))
      ∧ r.2.mem ((c : Thread nD τ).loc main_v27_2) = acausalNew (m ((c : Thread nD τ).loc main_arg1)) (m ((c : Thread nD τ).loc main_arg7)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c =>
    ⟨(h c _ (mem_uc main_v13 (by decide))).trans (end_spikes m ρ c),
     (h c _ (mem_uc main_v19 (by decide))).trans (end_membrane m ρ c),
     (h c _ (mem_uc main_v25 (by decide))).trans (end_current m ρ c),
     (h c _ (mem_uc main_v26_0 (by decide))).trans (end_flag_ic m ρ c),
     (h c _ (mem_uc main_v26_1 (by decide))).trans (end_causal_ic m ρ c),
     (h c _ (mem_uc main_v26_2 (by decide))).trans (end_acausal_ic m ρ c),
     (h c _ (mem_uc main_v27_0 (by decide))).trans (end_flag_rc m ρ c),
     (h c _ (mem_uc main_v27_1 (by decide))).trans (end_causal_rc m ρ c),
     (h c _ (mem_uc main_v27_2 (by decide))).trans (end_acausal_rc m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c)⟩)
    (Held.run m ρ)

end Cert.KernelIdeal.Results

end
-- ==== Proof.RefStages.lean ====
/-
  The reference's six correlation results are the three update rules of whole arrays: each of its stages is a
  broadcast of a spike row along the missing axis or a pointwise operation, so an entry `[b, p, q]` of a result reads
  `zpre[b, p]`, `zpost[b, q]` and the synapse states at `[b, p, q]`, combined in the rules' own grouping. The
  postsynaptic row is the spike vector the reference computes from the membrane state (its stage `%13`), carried here
  as it stands.
-/
import proofs.«128571_j75737453298145_1_alg».proof.Proof.Gen.ReferenceIdeal.Run
import proofs.«128571_j75737453298145_1_alg».proof.Proof.Gen.ReferenceIdeal.Read
import proofs.«128571_j75737453298145_1_alg».proof.Proof.Spec
import Idealize.ShloMosaic.Lib.ValueIdx
import Idealize.ShloMosaic.Lib.Pipeline.Value

noncomputable section

namespace Cert.RefStages

open Cert.ReferenceIdeal Cert.ReferenceIdeal.Read Cert.Corr Idealize.ShloMosaic

variable {F : FTy → Type} [FloatOps F]

/-- Input-side flag (`%53`). -/
theorem flag_ic (x0 x2 x3 : (⟨S32x512, .f32⟩ : BufTy).Contents (Elt F)) (x4 : (⟨S32x512x512, .f32⟩ : BufTy).Contents (Elt F)) :
    val_main_v53 (F := F) x0 x2 x3 x4 = flagNew x0 (val_main_v13 (F := F) x2 x3) x4 := by
  funext i
  -- the rows an entry `[b, p, q]` reads: `[b, p]` through the column `[b, p, 0]` (both of its stretchings read the same
  -- entry), `[b, q]` through the lane row `[b, 0, q]`
  have hpre : idx_main_v26 (idx_main_v52 i) = preOf i :=
    funext fun a => by match a with | ⟨0, _⟩ => rfl | ⟨1, _⟩ => rfl
  have hpost : idx_main_v27 (idx_main_v49 i) = postOf i :=
    funext fun a => by match a with | ⟨0, _⟩ => rfl | ⟨1, _⟩ => rfl
  rw [val_main_v53_apply, val_main_v52_apply, val_main_v26_apply, val_main_v51_apply, val_main_v50_apply,
    val_main_v48_apply, val_main_v45_apply, val_main_v44_apply, val_main_cst_11_apply, val_main_v26_apply,
    val_main_v49_apply, val_main_v47_apply, val_main_v46_apply, val_main_cst_12_apply, val_main_v27_apply,
    hpre, hpost]
  rfl

/-- Input-side causal trace (`%34`). -/
theorem causal_ic (x2 x3 : (⟨S32x512, .f32⟩ : BufTy).Contents (Elt F)) (x4 x5 : (⟨S32x512x512, .f32⟩ : BufTy).Contents (Elt F)) :
    val_main_v34 (F := F) x2 x3 x4 x5 = causalNew (val_main_v13 (F := F) x2 x3) x4 x5 := by
  funext i
  -- the postsynaptic row an entry `[b, p, q]` reads, through the lane row `[b, 0, q]`, is `[b, q]`
  have hpost : idx_main_v27 (idx_main_v32 i) = postOf i :=
    funext fun a => by match a with | ⟨0, _⟩ => rfl | ⟨1, _⟩ => rfl
  rw [val_main_v34_apply, val_main_v29_apply, val_main_v28_apply, val_main_cst_6_apply,
    val_main_v33_apply, val_main_v32_apply, val_main_v31_apply, val_main_v30_apply, val_main_cst_7_apply,
    val_main_v27_apply, hpost]
  rfl

/-- Input-side acausal trace (`%43`). -/
theorem acausal_ic (x0 : (⟨S32x512, .f32⟩ : BufTy).Contents (Elt F)) (x4 x6 : (⟨S32x512x512, .f32⟩ : BufTy).Contents (Elt F)) :
    val_main_v43 (F := F) x0 x4 x6 = acausalNew x0 x4 x6 := by
  funext i
  -- the presynaptic row an entry `[b, p, q]` reads, through the column `[b, p, 0]`, is `[b, p]`
  have hpre : idx_main_v26 (idx_main_v41 i) = preOf i :=
    funext fun a => by match a with | ⟨0, _⟩ => rfl | ⟨1, _⟩ => rfl
  rw [val_main_v43_apply, val_main_v36_apply, val_main_v35_apply, val_main_cst_8_apply,
    val_main_v42_apply, val_main_v41_apply, val_main_v38_apply, val_main_v37_apply, val_main_cst_9_apply,
    val_main_v26_apply, val_main_v40_apply, val_main_v39_apply, val_main_cst_10_apply, hpre]
  rfl

/-- Recurrent-side flag (`%81`). -/
theorem flag_rc (x1 x2 x3 : (⟨S32x512, .f32⟩ : BufTy).Contents (Elt F)) (x7 : (⟨S32x512x512, .f32⟩ : BufTy).Contents (Elt F)) :
    val_main_v81 (F := F) x1 x2 x3 x7 = flagNew x1 (val_main_v13 (F := F) x2 x3) x7 := by
  funext i
  -- the rows an entry `[b, p, q]` reads: `[b, p]` through the column `[b, p, 0]` (both of its stretchings read the same
  -- entry), `[b, q]` through the lane row `[b, 0, q]`
  have hpre : idx_main_v54 (idx_main_v80 i) = preOf i :=
    funext fun a => by match a with | ⟨0, _⟩ => rfl | ⟨1, _⟩ => rfl
  have hpost : idx_main_v55 (idx_main_v77 i) = postOf i :=
    funext fun a => by match a with | ⟨0, _⟩ => rfl | ⟨1, _⟩ => rfl
  rw [val_main_v81_apply, val_main_v80_apply, val_main_v54_apply, val_main_v79_apply, val_main_v78_apply,
    val_main_v76_apply, val_main_v73_apply, val_main_v72_apply, val_main_cst_18_apply, val_main_v54_apply,
    val_main_v77_apply, val_main_v75_apply, val_main_v74_apply, val_main_cst_19_apply, val_main_v55_apply,
    hpre, hpost]
  rfl

/-- Recurrent-side causal trace (`%62`). -/
theorem causal_rc (x2 x3 : (⟨S32x512, .f32⟩ : BufTy).Contents (Elt F)) (x7 x8 : (⟨S32x512x512, .f32⟩ : BufTy).Contents (Elt F)) :
    val_main_v62 (F := F) x2 x3 x7 x8 = causalNew (val_main_v13 (F := F) x2 x3) x7 x8 := by
  funext i
  -- the postsynaptic row an entry `[b, p, q]` reads, through the lane row `[b, 0, q]`, is `[b, q]`
  have hpost : idx_main_v55 (idx_main_v60 i) = postOf i :=
    funext fun a => by match a with | ⟨0, _⟩ => rfl | ⟨1, _⟩ => rfl
  rw [val_main_v62_apply, val_main_v57_apply, val_main_v56_apply, val_main_cst_13_apply,
    val_main_v61_apply, val_main_v60_apply, val_main_v59_apply, val_main_v58_apply, val_main_cst_14_apply,
    val_main_v55_apply, hpost]
  rfl

/-- Recurrent-side acausal trace (`%71`). -/
theorem acausal_rc (x1 : (⟨S32x512, .f32⟩ : BufTy).Contents (Elt F)) (x7 x9 : (⟨S32x512x512, .f32⟩ : BufTy).Contents (Elt F)) :
    val_main_v71 (F := F) x1 x7 x9 = acausalNew x1 x7 x9 := by
  funext i
  -- the presynaptic row an entry `[b, p, q]` reads, through the column `[b, p, 0]`, is `[b, p]`
  have hpre : idx_main_v54 (idx_main_v69 i) = preOf i :=
    funext fun a => by match a with | ⟨0, _⟩ => rfl | ⟨1, _⟩ => rfl
  rw [val_main_v71_apply, val_main_v64_apply, val_main_v63_apply, val_main_cst_15_apply,
    val_main_v70_apply, val_main_v69_apply, val_main_v66_apply, val_main_v65_apply, val_main_cst_16_apply,
    val_main_v54_apply, val_main_v68_apply, val_main_v67_apply, val_main_cst_17_apply, hpre]
  rfl

end Cert.RefStages

end
-- ==== Proof.lean ====
/-
  The certificate of the LIF correlation step. Both programs first take the membrane step on the host — the new spike
  vector `z`, membrane potential `v` and synaptic current `i`, the same operations in the same order — and then update two
  correlation sensors (input → neuron and neuron → neuron), each with three per-synapse states: a flag, a causal trace and
  an acausal trace. The kernel's program runs one tiled kernel per sensor, the reference broadcasts the spike rows over the
  synapse arrays; entry by entry both apply

    flag    ↦ pre + ((1 - pre) · (1 - post)) · pp
    causal  ↦ corr · 0.99 + (1 · post) · pp
    acausal ↦ anti · 0.99 + (1 · pre) · (1 - pp)

  with `pre` the sensor's presynaptic spikes and `post` the NEW spike vector, grouped alike and with the same two binary32
  words for 0.99 and 1, so the two sides are one function of the arguments as they stand: no law of arithmetic joins them
  and the finiteness of the inputs is never used. The kernel's side is Proof/Results.lean (over Proof/Region0.lean,
  Proof/Region1.lean and the rules of Proof/Spec.lean), the reference's Proof/RefStages.lean; the idealization pass
  rewrote nothing, so there is nothing to preserve.
-/
import proofs.«128571_j75737453298145_1_alg».proof.Defs
import proofs.«128571_j75737453298145_1_alg».proof.Proof.Gen.Kernel
import proofs.«128571_j75737453298145_1_alg».proof.Proof.Gen.Kernel.Skeleton
import proofs.«128571_j75737453298145_1_alg».proof.Proof.Gen.Kernel.Launch
import proofs.«128571_j75737453298145_1_alg».proof.Proof.Gen.Kernel.Points
import proofs.«128571_j75737453298145_1_alg».proof.Proof.Gen.Kernel.Frame
import proofs.«128571_j75737453298145_1_alg».proof.Proof.Gen.KernelIdeal
import proofs.«128571_j75737453298145_1_alg».proof.Proof.Gen.KernelIdeal.Skeleton
import proofs.«128571_j75737453298145_1_alg».proof.Proof.Gen.KernelIdeal.Launch
import proofs.«128571_j75737453298145_1_alg».proof.Proof.Gen.KernelIdeal.Points
import proofs.«128571_j75737453298145_1_alg».proof.Proof.Gen.KernelIdeal.Frame
import proofs.«128571_j75737453298145_1_alg».proof.Proof.Gen.ReferenceIdeal
import proofs.«128571_j75737453298145_1_alg».proof.Proof.Gen.ReferenceIdeal.Run
import proofs.«128571_j75737453298145_1_alg».proof.Proof.Gen.ReferenceIdeal.Read
import proofs.«128571_j75737453298145_1_alg».proof.Proof.Gen.Pre_finite_inputs
import proofs.«128571_j75737453298145_1_alg».proof.Proof.Spec
import proofs.«128571_j75737453298145_1_alg».proof.Proof.Results
import proofs.«128571_j75737453298145_1_alg».proof.Proof.RefStages
import Idealize.ShloMosaic.Adequacy
import Idealize.ShloMosaic.Init

set_option maxRecDepth 16384

noncomputable section

namespace Cert.Proof

open Idealize.ShloMosaic Idealize.SL.Sem Cert.Corr

/-! ## The membrane step is one text in both programs -/

section Host
open Cert.KernelIdeal.Results Cert.ReferenceIdeal.Read

theorem spikes_eq (x2 x3 : Cert.ReferenceIdeal.S32x512.Idx → Ideal .f32) :
    val_main_v13 (F := Ideal) x2 x3 = spikes (F := Ideal) x2 x3 := rfl

theorem membrane_eq (x2 x3 : Cert.ReferenceIdeal.S32x512.Idx → Ideal .f32) :
    val_main_v19 (F := Ideal) x2 x3 = membrane (F := Ideal) x2 x3 := rfl

theorem current_eq (x0 x1 x3 : Cert.ReferenceIdeal.S32x512.Idx → Ideal .f32) (x10 x11 : Cert.ReferenceIdeal.S512x512.Idx → Ideal .f32) :
    val_main_v25 (F := Ideal) x0 x1 x3 x10 x11 = current (F := Ideal) x0 x1 x3 x10 x11 := rfl

end Host

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the nine results dropped. -/
theorem frame_ri : Cert.frame_ReferenceIdeal := fun m ρ _ =>
  (θ_run Cert.ReferenceIdeal.defs _ _).mono (fun _ h c => (h c).2.2.2.2.2.2.2.2.2) (Cert.ReferenceIdeal.Value.run (F := Ideal) m ρ)

theorem preserves : Cert.preserves_Kernel_KernelIdeal := trivial

/-- From memories that agree on the twelve arguments both programs end with the same nine results: the kernel's run
    names them as functions of its arguments; the reference's run gives its composed terms, which are its stages, which
    are the same functions of ITS arguments; the agreement carries one to the other. -/
theorem algebraic : Cert.algebraic_KernelIdeal_ReferenceIdeal := by
  intro m ρ m' ρ' _ hagree
  refine ⟨_, _, _, _, _, _, _, _, _, Cert.KernelIdeal.Results.run (F := Ideal) m ρ, ?_⟩
  refine (θ_run Cert.ReferenceIdeal.defs _ _).mono (fun r h c => ?_) (Cert.ReferenceIdeal.Value.run (F := Ideal) m' ρ')
  obtain ⟨h13, h19, h25, h53, h34, h43, h81, h62, h71, hargs⟩ := h c
  obtain ⟨a0, a1, a2, a3, a4, a5, a6, a7, a8, a9, a10, a11⟩ := hagree c
  refine ⟨?_, ?_, ?_, ?_, ?_, ?_, ?_, ?_, ?_, hargs⟩
  · rw [h13, Cert.ReferenceIdeal.Read.val_main_v13_eq, spikes_eq, a2, a3]
  · rw [h19, Cert.ReferenceIdeal.Read.val_main_v19_eq, membrane_eq, a2, a3]
  · rw [h25, Cert.ReferenceIdeal.Read.val_main_v25_eq, current_eq, a0, a1, a3, a10, a11]
  · rw [h53, Cert.ReferenceIdeal.Read.val_main_v53_eq, Cert.RefStages.flag_ic, spikes_eq, a0, a2, a3, a4]
  · rw [h34, Cert.ReferenceIdeal.Read.val_main_v34_eq, Cert.RefStages.causal_ic, spikes_eq, a2, a3, a4, a5]
  · rw [h43, Cert.ReferenceIdeal.Read.val_main_v43_eq, Cert.RefStages.acausal_ic, a0, a4, a6]
  · rw [h81, Cert.ReferenceIdeal.Read.val_main_v81_eq, Cert.RefStages.flag_rc, spikes_eq, a1, a2, a3, a7]
  · rw [h62, Cert.ReferenceIdeal.Read.val_main_v62_eq, Cert.RefStages.causal_rc, spikes_eq, a2, a3, a7, a8]
  · rw [h71, Cert.ReferenceIdeal.Read.val_main_v71_eq, Cert.RefStages.acausal_rc, a1, a7, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
